-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4096x64 .f32) (main_arg1 : FVec F S4096x64 .f32) (main_arg2 : FVec F S4096x4096 .f32) (main_arg3 : FVec F S4096x4096 .f32) (main_arg4 : FVec F S64x64 .f32) (main_arg5 : FVec F S64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S64x4096 : Shape := ⟨2, ![64, 4096]⟩
abbrev S1x64 : Shape := ⟨2, ![1, 64]⟩
abbrev S256x2048 : Shape := ⟨2, ![256, 2048]⟩
abbrev S64x256 : Shape := ⟨2, ![64, 256]⟩
abbrev S2048x64 : Shape := ⟨2, ![2048, 64]⟩
abbrev S256x64 : Shape := ⟨2, ![256, 64]⟩

abbrev nBuf : Space → Nat
  | .hbm => 13
  | .vmem => 18
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x4096, .f32⟩
  | .hbm, ⟨3, _⟩ => ⟨S4096x4096, .f32⟩
  | .hbm, ⟨4, _⟩ => ⟨S64x64, .f32⟩
  | .hbm, ⟨5, _⟩ => ⟨S64, .f32⟩
  | .hbm, ⟨6, _⟩ => ⟨S64x4096, .f32⟩
  | .hbm, ⟨7, _⟩ => ⟨S64x4096, .f32⟩
  | .hbm, ⟨8, _⟩ => ⟨S1x64, .f32⟩
  | .hbm, ⟨9, _⟩ => ⟨S64x4096, .f32⟩
  | .hbm, ⟨10, _⟩ => ⟨S64x4096, .f32⟩
  | .hbm, ⟨11, _⟩ => ⟨S4096x64, .f32⟩
  | .hbm, ⟨12, _⟩ => ⟨S4096x64, .f32⟩
  | .local _ .vmem, ⟨0, _⟩ => ⟨S64x4096, .f32⟩
  | .local _ .vmem, ⟨1, _⟩ => ⟨S64x4096, .f32⟩
  | .local _ .vmem, ⟨2, _⟩ => ⟨S64x64, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x64, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S4096x64, .f32⟩
  | .local _ .vmem, ⟨17, _⟩ => ⟨S4096x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S4096x64_S64x4096_1_0 : S4096x64.Transposes [1, 0] S64x4096
  shapeCasts_S64_S1x64 : S64.ShapeCasts S1x64
  inb_S64x64_S64x64_0_0 : ∀ a, (![0, 0] : Fin 2 → Nat) a + S64x64.size a ≤ S64x64.size a
  h_S64x64 : 0 < S64x64.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S256x2048_S256x2048_0_0 : ∀ a, (![0, 0] : Fin 2 → Nat) a + S256x2048.size a ≤ S256x2048.size a
  h_S256x2048 : 0 < S256x2048.numel
  inb_S4096x64_S2048x64_0_0 : ∀ a, (![0, 0] : Fin 2 → Nat) a + S2048x64.size a ≤ S4096x64.size a
  h_S2048x64 : 0 < S2048x64.numel
  inb_S4096x64_S2048x64_2048_0 : ∀ a, (![2048, 0] : Fin 2 → Nat) a + S2048x64.size a ≤ S4096x64.size a
  broadcasts_S1x64_S256x64 : S1x64.Broadcasts S256x64
  transposes_S256x64_p1_0_S64x256 : S256x64.Transposes [1, 0] S64x256
  inb_S64x256_S64x256_0_0 : ∀ a, (![0, 0] : Fin 2 → Nat) a + S64x256.size a ≤ S64x256.size a
  h_S64x256 : 0 < S64x256.numel
  transposes_S64x4096_S4096x64_1_0 : S64x4096.Transposes [1, 0] S4096x64
  dot_S64x4096_S64x64_S4096x64_0_0_1_1_n_n_wf : DotDims.WF S64x4096 S64x64 S4096x64 [0] [0] [1] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x4096.size a
  hwx0_3 : ∀ i : grid0.Coords, EltTy.bits .f32 = 32 ∨ (Rect.block (s := S4096x4096) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x4096.size a
  hwx0_4 : ∀ i : grid0.Coords, EltTy.bits .f32 = 32 ∨ (Rect.block (s := S4096x4096) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x4096.size a
  hwx0_5 : ∀ i : grid0.Coords, EltTy.bits .f32 = 32 ∨ (Rect.block (s := S4096x4096) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x4096.size a
  hwx0_6 : ∀ i : grid0.Coords, EltTy.bits .f32 = 32 ∨ (Rect.block (s := S4096x4096) S256x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x256.size a ≤ S64x4096.size a
  hwx0_8 : ∀ i : grid0.Coords, EltTy.bits .f32 = 32 ∨ (Rect.block (s := S64x4096) S64x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x256.size a ≤ S64x4096.size a
  hwx0_9 : ∀ i : grid0.Coords, EltTy.bits .f32 = 32 ∨ (Rect.block (s := S64x4096) S64x256.size (cc0_transform_9 i) (hinb0_9 i)).WholeWords (EltTy.packing .f32)

variable [Facts₀]

def dot_S64x4096_S64x64_S4096x64_0_0_1_1_n_n : DotDims S64x4096 S64x64 S4096x64 where
  lhsContracting := [0]
  rhsContracting := [0]
  lhsNonContracting := [1]
  rhsNonContracting := [1]
  lhsBatch := []
  rhsBatch := []
  wf := dot_S64x4096_S64x64_S4096x64_0_0_1_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S64x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S64x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S1x64 : Shape := ⟨2, ![1, 64]⟩

abbrev nBuf : Space → Nat
  | .hbm => 16
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x4096, .f32⟩
  | .hbm, ⟨3, _⟩ => ⟨S4096x4096, .f32⟩
  | .hbm, ⟨4, _⟩ => ⟨S64x64, .f32⟩
  | .hbm, ⟨5, _⟩ => ⟨S64, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S1x64, .f32⟩
  | .hbm, ⟨11, _⟩ => ⟨S4096x64, .f32⟩
  | .hbm, ⟨12, _⟩ => ⟨S4096x64, .f32⟩
  | .hbm, ⟨13, _⟩ => ⟨S1x64, .f32⟩
  | .hbm, ⟨14, _⟩ => ⟨S4096x64, .f32⟩
  | .hbm, ⟨15, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.Ideal.Data.lean ====
/-
  The fused graph-convolution kernel: what the pipeline's proof needs to know about each grid point.

  The grid has 16 points; point t handles rows [256 t, 256 t + 256) of both Laplacians. Eight input windows:
  the two transposed feature matrices (64 × 4096, whole), the weight (64 × 64, whole), for each Laplacian its
  left half-row block (256 × 2048 at block (t, 0)) and its right half-row block (at block (t, 1)) — the two
  halves are two windows on ONE array —, and the bias row (1 × 64). Two output windows, the transposed result
  blocks (64 × 256 at block (0, t)). Two scratch buffers (4096 × 64) hold the supports x · w: written once, at
  point 0, from the feature and weight blocks, and read at every point, upper and lower half separately.

  So after the body at point t: every input buffer still holds its block; output k holds
  transpose( L_left · S[0:2048] + L_right · S[2048:4096] + bias ) for its Laplacian's two blocks and its support S;
  and from point 1 on the scratch buffers hold the supports, which do not depend on t.
-/
import proofs.«107919_g7404523618362_cont_sun_m_697_16_alg».proof.Proof.Gen.KernelIdeal.Launch
import proofs.«107919_g7404523618362_cont_sun_m_697_16_alg».proof.Proof.Gen.KernelIdeal.Skeleton
import proofs.«107919_g7404523618362_cont_sun_m_697_16_alg».proof.Proof.Gen.KernelIdeal.Points
import Idealize.ShloMosaic.Lib.Pipeline.FrameBody
import Idealize.ShloMosaic.Lib.Pipeline.FrameSuffix
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents around the region -/

/-- Core `c`'s buffers at launch, -/
abbrev V0 (c : Dev nD) : Valuation τ sig (Elt F) := fun b => m (c, b)
/-- and when the region is entered: the two feature matrices transposed, the bias reshaped to a row. -/
abbrev V1 (c : Dev nD) : Valuation τ sig (Elt F) := StableHlo.after hostOps0 (V0 m c)
/-- The same read at a TensorCore reference. -/
abbrev VE (c : Dev nD) (b : Ref sig .tc) : Buf (Elt F) ((c : Thread nD τ).loc b) := V1 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (VE m c (Pipeline.arrRef spec0 w))

/-- The blocks at their literal types: the transposed features, the weight, the four Laplacian half-row blocks, the bias row. -/
abbrev xt1 (c : Dev nD) (t : Fin cfg0.N) : Vec F S64x4096 .f32 := iblk m c 0 t
abbrev xt2 (c : Dev nD) (t : Fin cfg0.N) : Vec F S64x4096 .f32 := iblk m c 1 t
abbrev wgt (c : Dev nD) (t : Fin cfg0.N) : Vec F S64x64 .f32 := iblk m c 2 t
abbrev lap1L (c : Dev nD) (t : Fin cfg0.N) : Vec F S256x2048 .f32 := iblk m c 3 t
abbrev lap1R (c : Dev nD) (t : Fin cfg0.N) : Vec F S256x2048 .f32 := iblk m c 4 t
abbrev lap2L (c : Dev nD) (t : Fin cfg0.N) : Vec F S256x2048 .f32 := iblk m c 5 t
abbrev lap2R (c : Dev nD) (t : Fin cfg0.N) : Vec F S256x2048 .f32 := iblk m c 6 t
abbrev biasRow (c : Dev nD) (t : Fin cfg0.N) : Vec F S1x64 .f32 := iblk m c 7 t

/-! ## The supports and the output blocks -/

/-- The rectangles through which the body reads a support's upper and lower half. -/
abbrev rUp : Rect S4096x64 := Rect.unit (s := S4096x64) ![0, 0] S2048x64.size inb_S4096x64_S2048x64_0_0
abbrev rLo : Rect S4096x64 := Rect.unit (s := S4096x64) ![2048, 0] S2048x64.size inb_S4096x64_S2048x64_2048_0

/-- Rows [0, 2048) and rows [2048, 4096) of a 4096 × 64 array. -/
def upper (s : Vec F S4096x64 .f32) : Vec F S2048x64 .f32 := fun x => s (rUp.emb x)
def lower (s : Vec F S4096x64 .f32) : Vec F S2048x64 .f32 := fun x => s (rLo.emb x)

/-- The supports x · w, as the body forms them at the first point from the blocks staged there. -/
def sup1 (c : Dev nD) : Vec F S4096x64 .f32 := k0_pay1 (wgt m c t0_0) (xt1 m c t0_0)
def sup2 (c : Dev nD) : Vec F S4096x64 .f32 := k0_pay2 (wgt m c t0_0) (xt2 m c t0_0)

/-- What the body stores into the two output buffers at point `t`. -/
def out1 (c : Dev nD) (t : Fin cfg0.N) : Vec F S64x256 .f32 :=
  k0_pay4 (biasRow m c t) (lap1L m c t) (upper (sup1 m c)) (lap1R m c t) (lower (sup1 m c))
def out2 (c : Dev nD) (t : Fin cfg0.N) : Vec F S64x256 .f32 :=
  k0_pay5 (biasRow m c t) (lap2L m c t) (upper (sup2 m c)) (lap2R m c t) (lower (sup2 m c))

/-! ## The region invariant: the scratch buffers -/

/-- The scratch operands as memrefs. -/
abbrev scr1 : Memref sig .tc .vmem S4096x64 .f32 := Memref.whole cc0_scratch0
abbrev scr2 : Memref sig .tc .vmem S4096x64 .f32 := Memref.whole cc0_scratch1

/-- Before the first point the scratch buffers hold anything; afterwards the supports. -/
def PhiS (c : Dev nD) : ℕ → sProp 𝕄
  | 0 => iprop((∃ d, owns (c : Thread nD τ) scr1 fullShare d) ∗ (∃ d, owns (c : Thread nD τ) scr2 fullShare d))
  | _ + 1 => iprop(owns (c : Thread nD τ) scr1 fullShare (sup1 m c) ∗ owns (c : Thread nD τ) scr2 fullShare (sup2 m c))

theorem PhiS_zero (c : Dev nD) :
    PhiS m c 0 = iprop((∃ d, owns (c : Thread nD τ) scr1 fullShare d) ∗ (∃ d, owns (c : Thread nD τ) scr2 fullShare d)) := rfl
theorem PhiS_succ (c : Dev nD) (n : ℕ) :
    PhiS m c (n + 1) = iprop(owns (c : Thread nD τ) scr1 fullShare (sup1 m c) ∗ owns (c : Thread nD τ) scr2 fullShare (sup2 m c)) := rfl
theorem PhiS_pos (c : Dev nD) (n : ℕ) (hn : n ≠ 0) :
    PhiS m c n = iprop(owns (c : Thread nD τ) scr1 fullShare (sup1 m c) ∗ owns (c : Thread nD τ) scr2 fullShare (sup2 m c)) := by
  cases n with
  | zero => exact absurd rfl hn
  | succ n => rfl

/-! ## The pipeline's proof data -/

/-- The share of each input array a window holds: the two windows on one Laplacian hold its two halves. -/
def qOf : Fin cfg0.W → PosShare TreeShare
  | ⟨0, _⟩ => fullShare
  | ⟨1, _⟩ => fullShare
  | ⟨2, _⟩ => fullShare
  | ⟨3, _⟩ => fullShare.left
  | ⟨4, _⟩ => fullShare.right
  | ⟨5, _⟩ => fullShare.left
  | ⟨6, _⟩ => fullShare.right
  | ⟨7, _⟩ => fullShare
  | ⟨8, _⟩ => fullShare
  | ⟨9, _⟩ => fullShare
  | ⟨_ + 10, h⟩ => absurd h (Nat.not_lt.2 (Nat.le_add_left _ _))

/-- The proof data on core `c`: the arrays as the region finds them; after the body each input buffer at its block and
    the outputs at `out1`, `out2`; the scratch invariant; nothing owed. -/
def dats (_ : Fin 1) (c : Dev nD) : Dat τ (Elt F) Unit ℕ (UR sig nD τ) ℕ cfg0 c where
  A w := VE m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out1 m c t
    | ⟨9, _⟩ => out2 m c t
  Φ t := PhiS m c t.val
  q := qOf
  owed _ := 0

theorem A_eq (c : Dev nD) (w : Fin cfg0.W) : (dats m 0 c).A w = VE m c (Pipeline.arrRef spec0 w) := by
  dsimp only [dats]

theorem Phi_eq (c : Dev nD) (t : Fin (cfg0.N + 1)) : (dats m 0 c).Φ t = PhiS m c t.val := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out1 m c t := by dsimp only [dats]
theorem after_9 (c : Dev nD) (t : Fin cfg0.N) : (dats m 0 c).after 9 t = out2 m c t := by dsimp only [dats]

end Cert.KernelIdeal.Hand

end
-- ==== Proof.Ideal.Body.lean ====
/-
  The kernel body as a triple, on any staging memrefs holding any blocks.

  At the first grid point the body forms both supports on the matrix unit (the transposed features against the weight,
  contracted over the feature axis) and stores them whole into the two scratch buffers; at every point it then reads each
  support's upper and lower 2048 rows, multiplies the left and right Laplacian half-row blocks against them, adds the two
  products and the bias row, transposes, and stores the 64 × 256 result whole into each output buffer. It reads every
  input buffer whole and changes none. Loads of a buffer just before it is overwritten have no use and no effect.
-/
import proofs.«107919_g7404523618362_cont_sun_m_697_16_alg».proof.Proof.Ideal.Data
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

variable {F : FTy → Type} [FloatOps F]

local notation "𝕄" => MT nD τ sig Unit (Elt F) ℕ (UR sig nD τ) ℕ

/-! ## Whole and half rectangles -/

section Access

variable {κ : Kind} {sp : Space} {s : Shape} {e : EltTy}

omit [FloatOps F] in
/-- The unit-stride rectangle from the origin with the shape's own extents places every index at itself. -/
theorem whole_emb {off : Fin s.rank → Nat} (hoff : ∀ a, off a = 0) (inb : ∀ a, off a + s.size a ≤ s.size a) (x : s.Idx) :
    (Rect.unit (s := s) off s.size inb).emb x = x := by
  funext a; apply Fin.ext; rw [Rect.emb_apply]
  show off a + 1 * (x a).val = (x a).val
  rw [hoff a]; omega

omit [FloatOps F] in
/-- A load through the whole rectangle reads what the view reads. -/
theorem readAt_whole_rect (v : View sig κ sp s e) {off : Fin s.rank → Nat} (hoff : ∀ a, off a = 0)
    (inb : ∀ a, off a + s.size a ≤ s.size a) (f : v.ty.Contents (Elt F)) :
    v.readAt (Elt F) (Rect.unit (s := s) off s.size inb).toLoadRect f = v.read (Elt F) f := by
  funext x
  rw [View.readAt_apply]
  exact congrArg (v.read (Elt F) f) (whole_emb hoff inb x)

omit [FloatOps F] in
/-- After one unmasked store through the whole rectangle the view reads the payload, whatever it held. -/
theorem read_writes_whole (v : View sig κ sp s e) {off : Fin s.rank → Nat} (hoff : ∀ a, off a = 0)
    (inb : ∀ a, off a + s.size a ≤ s.size a) (f : v.ty.Contents (Elt F)) (w : s.Idx → Elt F e) :
    v.read (Elt F) (v.writes (Elt F) f [⟨Rect.unit (s := s) off s.size inb, w⟩]) = w := by
  funext y
  conv_lhs => rw [← whole_emb hoff inb y]
  exact View.read_writes_cons_emb v f (Rect.unit (s := s) off s.size inb) w [] y

end Access

/-- The origin of a rank-two shape. -/
theorem origin2 : ∀ a : Fin 2, (![0, 0] : Fin 2 → Nat) a = 0 := by decide

/-- The branch of the body is taken exactly at the first point of the grid. -/
theorem taken_iff : ∀ k : Fin 16,
    (Scalar.cmpi .ne (Scalar.extui (Scalar.cmpi .eq (BitVec.ofNat 32 k.val) 0#32)) 0#32 = 1#1) ↔ k.val = 0 := by decide

omit [FloatOps F] in
/-- The two half loads of a support buffer read its upper and lower rows. -/
theorem readAt_upper (v : View sig .tc .vmem S4096x64 .f32) (g : v.ty.Contents (Elt F)) :
    v.readAt (Elt F) rUp.toLoadRect g = upper (v.read (Elt F) g) := rfl
omit [FloatOps F] in
theorem readAt_lower (v : View sig .tc .vmem S4096x64 .f32) (g : v.ty.Contents (Elt F)) :
    v.readAt (Elt F) rLo.toLoadRect g = lower (v.read (Elt F) g) := rfl

omit [FloatOps F] in
/-- The half loads of a support buffer after one whole store of `w` read the upper and lower rows of `w`. -/
theorem readCov_upper [∀ e, Nonempty (Elt F e)] (v : View sig .tc .vmem S4096x64 .f32) (inb : ∀ a, (![0, 0] : Fin 2 → Nat) a + S4096x64.size a ≤ S4096x64.size a)
    (w : S4096x64.Idx → Elt F .f32) :
    v.readCov [⟨Rect.unit (s := S4096x64) ![0, 0] S4096x64.size inb, w⟩] rUp.toLoadRect = upper w := by
  unfold View.readCov
  rw [readAt_upper, read_writes_whole _ origin2]
omit [FloatOps F] in
theorem readCov_lower [∀ e, Nonempty (Elt F e)] (v : View sig .tc .vmem S4096x64 .f32) (inb : ∀ a, (![0, 0] : Fin 2 → Nat) a + S4096x64.size a ≤ S4096x64.size a)
    (w : S4096x64.Idx → Elt F .f32) :
    v.readCov [⟨Rect.unit (s := S4096x64) ![0, 0] S4096x64.size inb, w⟩] rLo.toLoadRect = lower w := by
  unfold View.readCov
  rw [readAt_lower, read_writes_whole _ origin2]

/-- The first grid point: the scratch buffers, at anything, end at the supports of the blocks staged now. -/
theorem run_first (c : Dev nD) (i : grid0.Coords) (hi : (i 0).val = 0)
    (a1 : Memref sig .tc .vmem S64x4096 .f32) (h1 : a1.IsWhole) (a2 : Memref sig .tc .vmem S64x4096 .f32) (h2 : a2.IsWhole)
    (a3 : Memref sig .tc .vmem S64x64 .f32) (h3 : a3.IsWhole)
    (a4 : Memref sig .tc .vmem S256x2048 .f32) (h4 : a4.IsWhole) (a5 : Memref sig .tc .vmem S256x2048 .f32) (h5 : a5.IsWhole)
    (a6 : Memref sig .tc .vmem S256x2048 .f32) (h6 : a6.IsWhole) (a7 : Memref sig .tc .vmem S256x2048 .f32) (h7 : a7.IsWhole)
    (a8 : Memref sig .tc .vmem S1x64 .f32) (h8 : a8.IsWhole)
    (a9 : Memref sig .tc .vmem S64x256 .f32) (h9 : a9.IsWhole) (a10 : Memref sig .tc .vmem S64x256 .f32) (h10 : a10.IsWhole)
    (x1 x2 : Vec F S64x4096 .f32) (w : Vec F S64x64 .f32) (la lb ma mb : Vec F S256x2048 .f32) (b : Vec F S1x64 .f32) :
    (iprop(owns (c : Thread nD τ) a1 fullShare x1 ∗ owns (c : Thread nD τ) a2 fullShare x2 ∗ owns (c : Thread nD τ) a3 fullShare w
        ∗ owns (c : Thread nD τ) a4 fullShare la ∗ owns (c : Thread nD τ) a5 fullShare lb ∗ owns (c : Thread nD τ) a6 fullShare ma ∗ owns (c : Thread nD τ) a7 fullShare mb
        ∗ owns (c : Thread nD τ) a8 fullShare b
        ∗ (∃ d, owns (c : Thread nD τ) a9 fullShare d) ∗ (∃ d, owns (c : Thread nD τ) a10 fullShare d)
        ∗ (∃ d, owns (c : Thread nD τ) scr1 fullShare d) ∗ (∃ d, owns (c : Thread nD τ) scr2 fullShare d)) : sProp 𝕄)
      ⊢ wp frame (wpE (defs₀ (F := F)) Variants.none c none) Set.univ
          (cc0__fused_kernel i a1 h1 a2 h2 a3 h3 a4 h4 a5 h5 a6 h6 a7 h7 a8 h8 a9 h9 a10 h10 scr1 (Memref.isWhole_whole _) scr2 (Memref.isWhole_whole _))
          (fun _ => iprop(owns (c : Thread nD τ) a1 fullShare x1 ∗ owns (c : Thread nD τ) a2 fullShare x2 ∗ owns (c : Thread nD τ) a3 fullShare w
        ∗ owns (c : Thread nD τ) a4 fullShare la ∗ owns (c : Thread nD τ) a5 fullShare lb ∗ owns (c : Thread nD τ) a6 fullShare ma ∗ owns (c : Thread nD τ) a7 fullShare mb
        ∗ owns (c : Thread nD τ) a8 fullShare b
            ∗ owns (c : Thread nD τ) a9 fullShare (k0_pay4 b la (upper (k0_pay1 w x1)) lb (lower (k0_pay1 w x1)))
            ∗ owns (c : Thread nD τ) a10 fullShare (k0_pay5 b ma (upper (k0_pay2 w x2)) mb (lower (k0_pay2 w x2)))
            ∗ owns (c : Thread nD τ) scr1 fullShare (k0_pay1 w x1) ∗ owns (c : Thread nD τ) scr2 fullShare (k0_pay2 w x2))) := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%d9, %f9, -, H9⟩, ⟨%d10, %f10, -, H10⟩, ⟨%e1, %g1, -, HS1⟩, ⟨%e2, %g2, -, HS2⟩⟩
  subst hf1 hf2 hf3 hf4 hf5 hf6 hf7 hf8
  have hc : Scalar.cmpi .ne (Scalar.extui (Scalar.cmpi .eq (BitVec.ofNat 32 (i 0).val) 0#32)) 0#32 = 1#1 :=
    (taken_iff (i 0)).mpr hi
  sl_unfold [cc0__fused_kernel]
  sl_exec (disch := sl_exact hc)
  sl_step
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr; swap; · iexact H9
    ipureintro
    sl_unfold_run_names
    rw [read_writes_whole _ origin2, readCov_upper, readCov_lower, readAt_whole_rect _ origin2, readAt_whole_rect _ origin2,
      readAt_whole_rect _ origin2, readAt_whole_rect _ origin2, readAt_whole_rect _ origin2]
  isplitl [H10]
  · iexists _; isplitr; swap; · iexact H10
    ipureintro
    sl_unfold_run_names
    rw [read_writes_whole _ origin2, readCov_upper, readCov_lower, readAt_whole_rect _ origin2, readAt_whole_rect _ origin2,
      readAt_whole_rect _ origin2, readAt_whole_rect _ origin2, readAt_whole_rect _ origin2]
  isplitl [HS1]
  · iexists _; isplitr; swap; · iexact HS1
    ipureintro
    sl_unfold_run_names
    rw [read_writes_whole _ origin2, readAt_whole_rect _ origin2, readAt_whole_rect _ origin2]
  iexists _; isplitr; swap; · iexact HS2
  ipureintro
  sl_unfold_run_names
  rw [read_writes_whole _ origin2, readAt_whole_rect _ origin2, readAt_whole_rect _ origin2]

/-- Every later grid point: the scratch buffers hold supports `s1`, `s2` and keep them. -/
theorem run_later (c : Dev nD) (i : grid0.Coords) (hi : (i 0).val ≠ 0)
    (a1 : Memref sig .tc .vmem S64x4096 .f32) (h1 : a1.IsWhole) (a2 : Memref sig .tc .vmem S64x4096 .f32) (h2 : a2.IsWhole)
    (a3 : Memref sig .tc .vmem S64x64 .f32) (h3 : a3.IsWhole)
    (a4 : Memref sig .tc .vmem S256x2048 .f32) (h4 : a4.IsWhole) (a5 : Memref sig .tc .vmem S256x2048 .f32) (h5 : a5.IsWhole)
    (a6 : Memref sig .tc .vmem S256x2048 .f32) (h6 : a6.IsWhole) (a7 : Memref sig .tc .vmem S256x2048 .f32) (h7 : a7.IsWhole)
    (a8 : Memref sig .tc .vmem S1x64 .f32) (h8 : a8.IsWhole)
    (a9 : Memref sig .tc .vmem S64x256 .f32) (h9 : a9.IsWhole) (a10 : Memref sig .tc .vmem S64x256 .f32) (h10 : a10.IsWhole)
    (x1 x2 : Vec F S64x4096 .f32) (w : Vec F S64x64 .f32) (la lb ma mb : Vec F S256x2048 .f32) (b : Vec F S1x64 .f32) (s1 s2 : Vec F S4096x64 .f32) :
    (iprop(owns (c : Thread nD τ) a1 fullShare x1 ∗ owns (c : Thread nD τ) a2 fullShare x2 ∗ owns (c : Thread nD τ) a3 fullShare w
        ∗ owns (c : Thread nD τ) a4 fullShare la ∗ owns (c : Thread nD τ) a5 fullShare lb ∗ owns (c : Thread nD τ) a6 fullShare ma ∗ owns (c : Thread nD τ) a7 fullShare mb
        ∗ owns (c : Thread nD τ) a8 fullShare b
        ∗ (∃ d, owns (c : Thread nD τ) a9 fullShare d) ∗ (∃ d, owns (c : Thread nD τ) a10 fullShare d)
        ∗ owns (c : Thread nD τ) scr1 fullShare s1 ∗ owns (c : Thread nD τ) scr2 fullShare s2) : sProp 𝕄)
      ⊢ wp frame (wpE (defs₀ (F := F)) Variants.none c none) Set.univ
          (cc0__fused_kernel i a1 h1 a2 h2 a3 h3 a4 h4 a5 h5 a6 h6 a7 h7 a8 h8 a9 h9 a10 h10 scr1 (Memref.isWhole_whole _) scr2 (Memref.isWhole_whole _))
          (fun _ => iprop(owns (c : Thread nD τ) a1 fullShare x1 ∗ owns (c : Thread nD τ) a2 fullShare x2 ∗ owns (c : Thread nD τ) a3 fullShare w
        ∗ owns (c : Thread nD τ) a4 fullShare la ∗ owns (c : Thread nD τ) a5 fullShare lb ∗ owns (c : Thread nD τ) a6 fullShare ma ∗ owns (c : Thread nD τ) a7 fullShare mb
        ∗ owns (c : Thread nD τ) a8 fullShare b
            ∗ owns (c : Thread nD τ) a9 fullShare (k0_pay4 b la (upper s1) lb (lower s1))
            ∗ owns (c : Thread nD τ) a10 fullShare (k0_pay5 b ma (upper s2) mb (lower s2))
            ∗ owns (c : Thread nD τ) scr1 fullShare s1 ∗ owns (c : Thread nD τ) scr2 fullShare s2)) := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%d9, %f9, -, H9⟩, ⟨%d10, %f10, -, H10⟩, ⟨%g1, %hg1, HS1⟩, ⟨%g2, %hg2, HS2⟩⟩
  subst hf1 hf2 hf3 hf4 hf5 hf6 hf7 hf8 hg1 hg2
  have hc : ¬ (Scalar.cmpi .ne (Scalar.extui (Scalar.cmpi .eq (BitVec.ofNat 32 (i 0).val) 0#32)) 0#32 = 1#1) :=
    fun h => hi ((taken_iff (i 0)).mp h)
  sl_unfold [cc0__fused_kernel]
  sl_exec (disch := sl_exact hc)
  sl_step
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr; swap; · iexact H9
    ipureintro
    rw [read_writes_whole _ origin2, readAt_whole_rect _ origin2, readAt_whole_rect _ origin2, readAt_whole_rect _ origin2,
      readAt_upper, readAt_lower]
  isplitl [H10]
  · iexists _; isplitr; swap; · iexact H10
    ipureintro
    rw [read_writes_whole _ origin2, readAt_whole_rect _ origin2, readAt_whole_rect _ origin2, readAt_whole_rect _ origin2,
      readAt_upper, readAt_lower]
  isplitl [HS1]; · iexists _; isplitr; · ipureintro; rfl
                   iexact HS1
  iexists _; isplitr; · ipureintro; rfl
  iexact HS2

end Cert.KernelIdeal.Hand

end
-- ==== Proof.Ideal.Oblig.lean ====
/-
  The body obligation: at every grid point, from the scratch invariant and each window's current staging buffer at what it
  then holds, the body runs to the invariant at the next point and each buffer at what the proof data says it leaves.
  Every input buffer holds its block at every point, fetched there or not (the four whole-array windows are fetched
  once, at point 0, and never overwritten; the Laplacian half-row blocks are fetched at every point); the output buffers
  are written back at every point, so the body finds them at anything.
-/
import proofs.«107919_g7404523618362_cont_sun_m_697_16_alg».proof.Proof.Ideal.Body

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The schedule's facts the obligation reads -/

/-- The grid is one axis: a point's first coordinate is its position. -/
theorem coord_val : ∀ t : Fin cfg0.N, ((grid0.coords t) 0).val = t.val := by decide +kernel

/-- No window is idle at any point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel

/-! ## What the input buffers hold when the body runs -/

/-- Input window 0's current buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's current buffer holds its block at every point. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's current buffer holds its block at every point. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Input window 3's current buffer holds its block at every point. -/
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- Input window 4's current buffer holds its block at every point. -/
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- Input window 5's current buffer holds its block at every point. -/
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
/-- Input window 6's current buffer holds its block at every point. -/
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
/-- Input window 7's current buffer holds its block at every point. -/
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-! ## The staging memrefs the body is called with -/

/-- Each window's current staging memref at point `t`, at its literal type, and that it is a whole buffer. -/
abbrev ms_0 (t : Fin cfg0.N) : Memref sig .tc .vmem S64x4096 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S64x4096 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S64x64 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S256x2048 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S256x2048 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S256x2048 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S256x2048 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x64 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S64x256 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S64x256 .f32 := win0_9.stage (cfg0.slots t 9)
abbrev hs_9 (t : Fin cfg0.N) : (ms_9 t).IsWhole := hstage0_9 ((cfg0.slots t 9).cast nbuf0_9)

/-- What the body leaves in a window's buffer is what the proof data names: no point is idle. -/
theorem leaves_0 (c : Dev nD) (t : Fin cfg0.N) :
    (dats m 0 c).leavesExact 0 t = owns (c : Thread nD τ) (ms_0 t) fullShare ((dats m 0 c).after 0 t) := by
  unfold Dat.leavesExact; rw [live_0 t]
theorem leaves_1 (c : Dev nD) (t : Fin cfg0.N) :
    (dats m 0 c).leavesExact 1 t = owns (c : Thread nD τ) (ms_1 t) fullShare ((dats m 0 c).after 1 t) := by
  unfold Dat.leavesExact; rw [live_1 t]
theorem leaves_2 (c : Dev nD) (t : Fin cfg0.N) :
    (dats m 0 c).leavesExact 2 t = owns (c : Thread nD τ) (ms_2 t) fullShare ((dats m 0 c).after 2 t) := by
  unfold Dat.leavesExact; rw [live_2 t]
theorem leaves_3 (c : Dev nD) (t : Fin cfg0.N) :
    (dats m 0 c).leavesExact 3 t = owns (c : Thread nD τ) (ms_3 t) fullShare ((dats m 0 c).after 3 t) := by
  unfold Dat.leavesExact; rw [live_3 t]
theorem leaves_4 (c : Dev nD) (t : Fin cfg0.N) :
    (dats m 0 c).leavesExact 4 t = owns (c : Thread nD τ) (ms_4 t) fullShare ((dats m 0 c).after 4 t) := by
  unfold Dat.leavesExact; rw [live_4 t]
theorem leaves_5 (c : Dev nD) (t : Fin cfg0.N) :
    (dats m 0 c).leavesExact 5 t = owns (c : Thread nD τ) (ms_5 t) fullShare ((dats m 0 c).after 5 t) := by
  unfold Dat.leavesExact; rw [live_5 t]
theorem leaves_6 (c : Dev nD) (t : Fin cfg0.N) :
    (dats m 0 c).leavesExact 6 t = owns (c : Thread nD τ) (ms_6 t) fullShare ((dats m 0 c).after 6 t) := by
  unfold Dat.leavesExact; rw [live_6 t]
theorem leaves_7 (c : Dev nD) (t : Fin cfg0.N) :
    (dats m 0 c).leavesExact 7 t = owns (c : Thread nD τ) (ms_7 t) fullShare ((dats m 0 c).after 7 t) := by
  unfold Dat.leavesExact; rw [live_7 t]
theorem leaves_8 (c : Dev nD) (t : Fin cfg0.N) :
    (dats m 0 c).leavesExact 8 t = owns (c : Thread nD τ) (ms_8 t) fullShare ((dats m 0 c).after 8 t) := by
  unfold Dat.leavesExact; rw [live_8 t]
theorem leaves_9 (c : Dev nD) (t : Fin cfg0.N) :
    (dats m 0 c).leavesExact 9 t = owns (c : Thread nD τ) (ms_9 t) fullShare ((dats m 0 c).after 9 t) := by
  unfold Dat.leavesExact; rw [live_9 t]

/-! ## The obligation at a point -/

/-- The body at any point, the windows one by one: at the first point the scratch buffers are at anything and end at the
    supports of the blocks staged there, which are the supports the invariant names; at every later point they hold the
    supports and keep them. The inputs are handed over at their blocks and come back unchanged, the outputs at anything
    and come back at this point's result blocks; what the core owes passes through untouched. -/
theorem sound_body (c : Dev nD) (t : Fin cfg0.N) :
    (iprop((dats m 0 c).Φ t.castSucc ∗ (dats m 0 c).owesAt () t.castSucc
      ∗ (∃ d, owns (c : Thread nD τ) (ms_0 t) fullShare ((dats m 0 c).before 0 t d))
      ∗ (∃ d, owns (c : Thread nD τ) (ms_1 t) fullShare ((dats m 0 c).before 1 t d))
      ∗ (∃ d, owns (c : Thread nD τ) (ms_2 t) fullShare ((dats m 0 c).before 2 t d))
      ∗ (∃ d, owns (c : Thread nD τ) (ms_3 t) fullShare ((dats m 0 c).before 3 t d))
      ∗ (∃ d, owns (c : Thread nD τ) (ms_4 t) fullShare ((dats m 0 c).before 4 t d))
      ∗ (∃ d, owns (c : Thread nD τ) (ms_5 t) fullShare ((dats m 0 c).before 5 t d))
      ∗ (∃ d, owns (c : Thread nD τ) (ms_6 t) fullShare ((dats m 0 c).before 6 t d))
      ∗ (∃ d, owns (c : Thread nD τ) (ms_7 t) fullShare ((dats m 0 c).before 7 t d))
      ∗ (∃ d, owns (c : Thread nD τ) (ms_8 t) fullShare ((dats m 0 c).before 8 t d))
      ∗ (∃ d, owns (c : Thread nD τ) (ms_9 t) fullShare ((dats m 0 c).before 9 t d))) : sProp 𝕄)
      ⊢ wp frame (wpE (defs₀ (F := F)) Variants.none c none) Set.univ (bodyAt0 t) (fun _ =>
        iprop((dats m 0 c).Φ t.succ ∗ (dats m 0 c).owesAt () t.succ
        ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)) := by
  simp only [before_0, before_1, before_2, before_3, before_4, before_5, before_6, before_7]
  rw [leaves_0, leaves_1, leaves_2, leaves_3, leaves_4, leaves_5, leaves_6, leaves_7, leaves_8, leaves_9]
  rw [after_0, after_1, after_2, after_3, after_4, after_5, after_6, after_7, after_8, after_9]
  rw [show (dats m 0 c).owesAt () t.succ = (dats m 0 c).owesAt () t.castSucc from rfl]
  rw [Phi_eq, Phi_eq, Fin.coe_castSucc, Fin.val_succ, PhiS_succ]
  unfold out1 out2
  by_cases hz : t.val = 0
  · have ht : t = t0_0 := Fin.ext hz
    have e1 : sup1 m c = k0_pay1 (wgt m c t) (xt1 m c t) := by rw [ht]; rfl
    have e2 : sup2 m c = k0_pay2 (wgt m c t) (xt2 m c t) := by rw [ht]; rfl
    rw [show PhiS m c t.val = PhiS m c 0 from by rw [hz], PhiS_zero, e1, e2]
    iintro ⟨⟨HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (wp_wand_r Idealize.ShloMosaic.frame (wpE (defs₀ (F := F)) Variants.none (c : Thread nD τ) none) Set.univ)
    isplitr [Ho]
    · iapply (run_first c (grid0.coords t) ((coord_val t).trans hz) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t)
        (xt1 m c t) (xt2 m c t) (wgt m c t) (lap1L m c t) (lap1R m c t) (lap2L m c t) (lap2R m c t) (biasRow m c t))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS1]; · iexact HS1
      iexact HS2
    · iintro %_ ⟨H0, H1, H2, H3, H4, H5, H6, H7, H8, H9, HS1, HS2⟩
      isplitl [HS1 HS2]
      · isplitl [HS1]; · iexact HS1
        iexact HS2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · rw [PhiS_pos m c t.val hz]
    iintro ⟨⟨HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (wp_wand_r Idealize.ShloMosaic.frame (wpE (defs₀ (F := F)) Variants.none (c : Thread nD τ) none) Set.univ)
    isplitr [Ho]
    · iapply (run_later c (grid0.coords t) (fun h => hz ((coord_val t).symm.trans h)) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t)
        (xt1 m c t) (xt2 m c t) (wgt m c t) (lap1L m c t) (lap1R m c t) (lap2L m c t) (lap2R m c t) (biasRow m c t) (sup1 m c) (sup2 m c))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS1]; · iexact HS1
      iexact HS2
    · iintro %_ ⟨H0, H1, H2, H3, H4, H5, H6, H7, H8, H9, HS1, HS2⟩
      isplitl [HS1 HS2]
      · isplitl [HS1]; · iexact HS1
        iexact HS2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The obligation at every point: the conjunction over the windows written out, window by window, is `sound_body`. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Ideal.Run.lean ====
/-
  The launch: @main as three segments — the host operations that transpose the features and reshape the bias, the kernel
  region, the host operations that transpose the two results back — and what every unscoped buffer holds at the end.

  Each Laplacian is read by two windows; its buffer's full share is split into its left and right halves at the region's
  entry, one per window, and joined again at the exit, the array unchanged (an input array is never written). Everything
  else is held whole throughout: between segments core `c` holds every unscoped buffer at a valuation, `V1` entering the
  region, `V2` leaving it (the two results at what the pipeline's write-backs made of them), `V3` at the end.
-/
import proofs.«107919_g7404523618362_cont_sun_m_697_16_alg».proof.Proof.Ideal.Oblig

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two result arrays after every write-back. -/
abbrev res1 (c : Dev nD) : Buf (Elt F) ((c : Thread nD τ).loc main_v3_0) := (dats m 0 c).arrAt 8 cfg0.N
abbrev res2 (c : Dev nD) : Buf (Elt F) ((c : Thread nD τ).loc main_v3_1) := (dats m 0 c).arrAt 9 cfg0.N

/-- Core `c`'s buffers when the region is left: as entered but for the two results, -/
abbrev V2 (c : Dev nD) : Valuation τ sig (Elt F) :=
  Function.update (Function.update (V1 m c) main_v3_0 (res1 m c)) main_v3_1 (res2 m c)
/-- and at the end: the two results transposed back. -/
abbrev V3 (c : Dev nD) : Valuation τ sig (Elt F) := StableHlo.after hostOps1 (V2 m c)

/-! ## What the host operations leave alone -/

/-- The operations before the region write the two transposed feature matrices and the bias row, nothing else. -/
theorem hostOps0_keeps (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.not_mem_nil, or_false] at hop
  rcases hop with rfl | rfl | rfl <;>
    simp only [StableHlo.unary_writes, StableHlo.reshape_writes, Finset.mem_singleton] <;>
    exact StableHlo.devRef_ne_of_ne ‹_›

/-- The operations after the region write the two results transposed back, nothing else. -/
theorem hostOps1_keeps (b : Ref sig .tc) (hb : b ≠ main_v4 ∧ b ≠ main_v5) :
    ∀ op ∈ (hostOps1 (F := F)), Proc.devRef .tc b ∉ op.writes := by
  obtain ⟨h0, h1⟩ := hb
  intro op hop
  simp only [List.mem_cons, List.not_mem_nil, or_false] at hop
  rcases hop with rfl | rfl <;>
    simp only [StableHlo.unary_writes, Finset.mem_singleton] <;>
    exact StableHlo.devRef_ne_of_ne ‹_›

/-- What each segment does not write it leaves as it was. -/
theorem V1_keep (c : Dev nD) (b : Ref sig .tc) (hb : b ≠ main_v0 ∧ b ≠ main_v1 ∧ b ≠ main_v2) :
    V1 m c (Proc.devRef .tc b) = m ((c.tc : Thread nD τ).loc b) :=
  StableHlo.after_of_forall_not_mem (b := Proc.devRef .tc b) hostOps0 (V0 m c) (hostOps0_keeps b hb)

theorem V2_keep (c : Dev nD) (b : Ref sig .tc) (hb : b ≠ main_v3_0 ∧ b ≠ main_v3_1) :
    V2 m c (Proc.devRef .tc b) = V1 m c (Proc.devRef .tc b) := by
  simp only [V2, Function.update_of_ne (StableHlo.devRef_ne_of_ne hb.2 : (Proc.devRef .tc b : DevRef τ sig) ≠ Proc.devRef .tc main_v3_1),
    Function.update_of_ne (StableHlo.devRef_ne_of_ne hb.1 : (Proc.devRef .tc b : DevRef τ sig) ≠ Proc.devRef .tc main_v3_0)]

theorem V3_keep (c : Dev nD) (b : Ref sig .tc) (hb : b ≠ main_v4 ∧ b ≠ main_v5) :
    V3 m c (Proc.devRef .tc b) = V2 m c (Proc.devRef .tc b) :=
  StableHlo.after_of_forall_not_mem (b := Proc.devRef .tc b) hostOps1 (V2 m c) (hostOps1_keeps b hb)

/-- An argument is written by no segment. -/
theorem V3_arg (c : Dev nD) (b : Ref sig .tc)
    (hb : b ≠ main_v0 ∧ b ≠ main_v1 ∧ b ≠ main_v2 ∧ b ≠ main_v3_0 ∧ b ≠ main_v3_1 ∧ b ≠ main_v4 ∧ b ≠ main_v5) :
    V3 m c (Proc.devRef .tc b) = m ((c.tc : Thread nD τ).loc b) :=
  (V3_keep m c b ⟨hb.2.2.2.2.2.1, hb.2.2.2.2.2.2⟩).trans <| (V2_keep m c b ⟨hb.2.2.2.1, hb.2.2.2.2.1⟩).trans <|
    V1_keep m c b ⟨hb.1, hb.2.1, hb.2.2.1⟩

/-! ## The buffers one by one -/

/-- The core's unscoped buffers, each whole at the full share: the six arguments, the three arrays the first host
    operations make, the two results, their two transposes. -/
theorem unscopedBufs0_eq (c : Dev nD) (V : (b : Ref sig .tc) → Buf (Elt F) ((c : Thread nD τ).loc b)) :
    (unscopedBufs c V : sProp 𝕄) = iprop(
      (((c : Thread nD τ).loc main_arg0) ↦{fullShare} V main_arg0) ∗ (((c : Thread nD τ).loc main_arg1) ↦{fullShare} V main_arg1)
      ∗ (((c : Thread nD τ).loc main_arg2) ↦{fullShare} V main_arg2) ∗ (((c : Thread nD τ).loc main_arg3) ↦{fullShare} V main_arg3)
      ∗ (((c : Thread nD τ).loc main_arg4) ↦{fullShare} V main_arg4) ∗ (((c : Thread nD τ).loc main_arg5) ↦{fullShare} V main_arg5)
      ∗ (((c : Thread nD τ).loc main_v0) ↦{fullShare} V main_v0) ∗ (((c : Thread nD τ).loc main_v1) ↦{fullShare} V main_v1)
      ∗ (((c : Thread nD τ).loc main_v2) ↦{fullShare} V main_v2) ∗ (((c : Thread nD τ).loc main_v3_0) ↦{fullShare} V main_v3_0)
      ∗ (((c : Thread nD τ).loc main_v3_1) ↦{fullShare} V main_v3_1) ∗ (((c : Thread nD τ).loc main_v4) ↦{fullShare} V main_v4)
      ∗ (((c : Thread nD τ).loc main_v5) ↦{fullShare} V main_v5)) := by
  unfold unscopedBufs
  exact bigSep_eq_bigSepL_of_eq [main_arg0, main_arg1, main_arg2, main_arg3, main_arg4, main_arg5, main_v0, main_v1, main_v2, main_v3_0, main_v3_1, main_v4, main_v5] (by decide) (by decide) _

/-- Every window's array is a whole buffer, held at the window's share. -/
theorem arrays0_univ (c : Dev nD) (G : (w : Fin cfg0.W) → Buf (Elt F) ((cfg0.win w).arr.view.loc (c : Thread nD τ))) :
    ((dats m 0 c).arrays G : sProp 𝕄)
      = bigSep Finset.univ fun w : Fin cfg0.W => ((cfg0.win w).arr.view.loc (c : Thread nD τ)) ↦{(dats m 0 c).share w} G w := by
  unfold Dat.arrays
  exact bigSep_congr fun w _ => by rw [(arr_whole0 w).set_eq_univ]

/-- The windows' arrays one by one: the two windows on a Laplacian hold its left and right half share, every other
    window its array's full share. -/
theorem arrays0_eq (c : Dev nD) (G : (w : Fin cfg0.W) → Buf (Elt F) ((cfg0.win w).arr.view.loc (c : Thread nD τ))) :
    ((dats m 0 c).arrays G : sProp 𝕄) = iprop(
      (((c : Thread nD τ).loc main_v0) ↦{fullShare} G 0) ∗ (((c : Thread nD τ).loc main_v1) ↦{fullShare} G 1)
      ∗ (((c : Thread nD τ).loc main_arg4) ↦{fullShare} G 2)
      ∗ (((c : Thread nD τ).loc main_arg2) ↦{fullShare.left} G 3) ∗ (((c : Thread nD τ).loc main_arg2) ↦{fullShare.right} G 4)
      ∗ (((c : Thread nD τ).loc main_arg3) ↦{fullShare.left} G 5) ∗ (((c : Thread nD τ).loc main_arg3) ↦{fullShare.right} G 6)
      ∗ (((c : Thread nD τ).loc main_v2) ↦{fullShare} G 7)
      ∗ (((c : Thread nD τ).loc main_v3_0) ↦{fullShare} G 8) ∗ (((c : Thread nD τ).loc main_v3_1) ↦{fullShare} G 9)) := by
  rw [arrays0_univ, bigSep_W0]
  rfl

/-- What bypasses the region: the unscoped buffers no window reads or writes. -/
abbrev Zc (c : Dev nD) : sProp 𝕄 := iprop(
  (((c : Thread nD τ).loc main_arg0) ↦{fullShare} VE m c main_arg0) ∗ (((c : Thread nD τ).loc main_arg1) ↦{fullShare} VE m c main_arg1)
  ∗ (((c : Thread nD τ).loc main_arg5) ↦{fullShare} VE m c main_arg5) ∗ (((c : Thread nD τ).loc main_v4) ↦{fullShare} VE m c main_v4)
  ∗ (((c : Thread nD τ).loc main_v5) ↦{fullShare} VE m c main_v5))

/-- ENTRY: the unscoped buffers as the host operations left them are the windows' arrays at their entry contents — each
    Laplacian's full share split into the halves its two windows hold — and what bypasses the region. -/
theorem entry_split (c : Dev nD) :
    (StableHlo.held (c : Thread nD τ) (Pipeline.ucRefs τ sig) (V1 m c) : sProp 𝕄)
      ⊢ iprop((dats m 0 c).arrays ((dats m 0 c).arrAt · 0) ∗ Zc m c) := by
  rw [← Pipeline.unscopedBufs_held (Ix := Unit) (Name := ℕ) (U := UR sig nD τ) (Lvl := ℕ) c (V1 m c), unscopedBufs0_eq, arrays0_eq]
  iintro ⟨H0, H1, H2, H3, H4, H5, Hv0, Hv1, Hv2, Hv30, Hv31, Hv4, Hv5⟩
  ihave H2 := (pointsTo_share (PosShare.mem_left_op_right fullShare)).1 $$ H2
  icases H2 with ⟨H2l, H2r⟩
  ihave H3 := (pointsTo_share (PosShare.mem_left_op_right fullShare)).1 $$ H3
  icases H3 with ⟨H3l, H3r⟩
  isplitr [H0 H1 H5 Hv4 Hv5]
  · isplitl [Hv0]; · iexact Hv0
    isplitl [Hv1]; · iexact Hv1
    isplitl [H4]; · iexact H4
    isplitl [H2l]; · iexact H2l
    isplitl [H2r]; · iexact H2r
    isplitl [H3l]; · iexact H3l
    isplitl [H3r]; · iexact H3r
    isplitl [Hv2]; · iexact Hv2
    isplitl [Hv30]; · iexact Hv30
    iexact Hv31
  · isplitl [H0]; · iexact H0
    isplitl [H1]; · iexact H1
    isplitl [H5]; · iexact H5
    isplitl [Hv4]; · iexact Hv4
    iexact Hv5

/-- The region leaves every input array as it found it, and the two results at what the write-backs made of them. -/
theorem V2_in (c : Dev nD) (w : Fin cfg0.W) (hin : (cfg0.win w).isOut = false)
    (hb : Pipeline.arrRef spec0 w ≠ main_v3_0 ∧ Pipeline.arrRef spec0 w ≠ main_v3_1) :
    (dats m 0 c).arrAt w cfg0.N = V2 m c (Proc.devRef .tc (Pipeline.arrRef spec0 w)) :=
  ((dats m 0 c).arrAt_in w hin _).trans (V2_keep m c _ hb).symm

/-- The first result's buffer at `V2`, -/
theorem V2_res1 (c : Dev nD) : V2 m c (Proc.devRef .tc main_v3_0) = res1 m c := by
  simp only [V2, Function.update_of_ne (StableHlo.devRef_ne_of_ne (by decide : main_v3_0 ≠ main_v3_1) : (Proc.devRef .tc main_v3_0 : DevRef τ sig) ≠ Proc.devRef .tc main_v3_1),
    Function.update_self]

/-- and the second's. -/
theorem V2_res2 (c : Dev nD) : V2 m c (Proc.devRef .tc main_v3_1) = res2 m c := by
  simp only [V2, Function.update_self]

/-- EXIT: the arrays at their final contents — each Laplacian's halves joined again — and what bypassed the region are
    the unscoped buffers at `V2`. -/
theorem exit_join (c : Dev nD) :
    iprop((dats m 0 c).arrays ((dats m 0 c).arrAt · cfg0.N) ∗ Zc m c)
      ⊢ (StableHlo.held (c : Thread nD τ) (Pipeline.ucRefs τ sig) (V2 m c) : sProp 𝕄) := by
  rw [← Pipeline.unscopedBufs_held (Ix := Unit) (Name := ℕ) (U := UR sig nD τ) (Lvl := ℕ) c (V2 m c), unscopedBufs0_eq, arrays0_eq]
  have e0 := V2_in m c 0 rfl (by decide)
  have e1 := V2_in m c 1 rfl (by decide)
  have e2 := V2_in m c 2 rfl (by decide)
  have e3 := V2_in m c 3 rfl (by decide)
  have e4 := V2_in m c 4 rfl (by decide)
  have e5 := V2_in m c 5 rfl (by decide)
  have e6 := V2_in m c 6 rfl (by decide)
  have e7 := V2_in m c 7 rfl (by decide)
  have ea0 := V2_keep m c main_arg0 (by decide)
  have ea1 := V2_keep m c main_arg1 (by decide)
  have ea5 := V2_keep m c main_arg5 (by decide)
  have ev4 := V2_keep m c main_v4 (by decide)
  have ev5 := V2_keep m c main_v5 (by decide)
  have er1 := V2_res1 m c
  have er2 := V2_res2 m c
  iintro ⟨⟨Hv0, Hv1, H4, H2l, H2r, H3l, H3r, Hv2, Hv30, Hv31⟩, H0, H1, H5, Hv4, Hv5⟩
  rw [ea0, ea1, ea5, ev4, ev5, er1, er2, e0, e1, e2, e3, e4, e5, e6, e7]
  ihave H2 := (pointsTo_share (PosShare.mem_left_op_right fullShare)).2 $$ [H2l H2r]
  · isplitl [H2l] <;> iassumption
  ihave H3 := (pointsTo_share (PosShare.mem_left_op_right fullShare)).2 $$ [H3l H3r]
  · isplitl [H3l] <;> iassumption
  isplitl [H0]; · iexact H0
  isplitl [H1]; · iexact H1
  isplitl [H2]; · iexact H2
  isplitl [H3]; · iexact H3
  isplitl [H4]; · iexact H4
  isplitl [H5]; · iexact H5
  isplitl [Hv0]; · iexact Hv0
  isplitl [Hv1]; · iexact Hv1
  isplitl [Hv2]; · iexact Hv2
  isplitl [Hv30]; · iexact Hv30
  isplitl [Hv31]; · iexact Hv31
  isplitl [Hv4]; · iexact Hv4
  iexact Hv5

/-! ## The segments -/

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through every segment: the core owing nothing. -/
abbrev R (c : Dev nD) : sProp 𝕄 := iprop(∃ W, owes (c : Thread nD τ) (0 : CellTallies nD τ sig Unit) W)

theorem hostOps0_fresh : ∀ op ∈ (hostOps0 (F := F)), op.fresh = ∅ := by
  intro _ h; (repeat (cases h with | head => rfl | tail _ h => ?_)); exact nomatch h
theorem hostOps1_fresh : ∀ op ∈ (hostOps1 (F := F)), op.fresh = ∅ := by
  intro _ h; (repeat (cases h with | head => rfl | tail _ h => ?_)); exact nomatch h

/-- The host operations before the region, over the unscoped buffers from the launch contents, -/
def H0 : HostSeg (Name := ℕ) (U := UR sig nD τ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h)) hostOps0_fresh (V0 m) R
/-- and those after it, from what the region left. -/
def H1 : HostSeg (Name := ℕ) (U := UR sig nD τ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h)) hostOps1_fresh (V2 m) R

-- unification must unfold definitions that occur in the types of metavariables here
set_option backward.isDefEq.respectTransparency.types false in
/-- THE REGION: entered from the buffers at `V1`, left with them at `V2`; nothing but the scratch buffers enters the
    invariant, and the buffers no window names bypass the region. -/
def R0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(emp)
  Y c := iprop(emp)
  Z c := Zc m c
  hentry c := by
    iintro ⟨⟨Hh, HO⟩, -, -⟩
    ihave H := (entry_split m c) $$ Hh
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [Phi_eq]
    show _ ⊢ PhiS m c 0
    rw [PhiS_zero, scopedRest0_eq]
    simp only [owns_whole]
    iintro ⟨-, -, H1, H2⟩
    isplitl [H1] <;> iassumption
  hout c := by
    rw [Phi_eq, PhiS_pos m c _ (show (Fin.last cfg0.N).val ≠ 0 by decide), Pipeline.ownSems0_none, scopedRest0_eq]
    simp only [owns_whole]
    iintro ⟨H1, H2⟩
    isplitr; · iempintro
    isplitr; · iempintro
    isplitl [H1]; · iexists _; iexact H1
    iexists _; iexact H2
  hexit c := by
    iintro ⟨Ha, HO, -, HZ⟩
    imodintro
    isplitr [HO]
    · iapply (exit_join m c)
      isplitl [Ha] <;> iassumption
    · unfold Pipeline.Dat.owesAt Pipeline.owesWithin
      icases HO with ⟨%W, -, HO⟩; iexists W; iexact HO

/-! ## The launch -/

-- unification must unfold definitions that occur in the types of metavariables here
set_option backward.isDefEq.respectTransparency.types false in
/-- From any memory with zero counters every weakly fair execution of @main terminates, and every unscoped buffer ends at `V3`. -/
theorem run_main : θ_run defs (onTc (τ := τ) (main (F := F))) ⟨m, fun _ => 0, ρ⟩ (fun r => ∀ c : Dev nD, ∀ b : Ref sig .tc,
    b.isScoped = false → r.2.mem ((c.tc : Thread nD τ).loc b) = V3 m c (Proc.devRef .tc b)) := by
  exact Pipeline.θ_run_regions_kit (pcfgs (F := F)) adm (dats m) () cellOf_inj emb₁ defs₀ Variants.none L lv m ρ main
    [.host (H0 m), .region (R0 m), .host (H1 m)]
    (fun c Q => by rw [main_segs adm (dats m) () Variants.none L lv (H0 m) (H1 m) (R0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => ∀ b : Ref sig .tc, b.isScoped = false → s.mem ((c.tc : Thread nD τ).loc b) = V3 m c (Proc.devRef .tc b))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        intro b hb
        exact h (Proc.devRef .tc b) (Finset.mem_filter.mpr ⟨StableHlo.devRef_mem_tcRefs b, fun h' => Bool.false_ne_true (hb.symm.trans h')⟩)
      · iexact HSI)
    (hQ := fun _ h => h)

/-- No segment writes an argument. -/
theorem V3_arg0 (c : Dev nD) : V3 m c (Proc.devRef .tc main_arg0) = m ((c.tc : Thread nD τ).loc main_arg0) := V3_arg m c main_arg0 (by decide)
theorem V3_arg1 (c : Dev nD) : V3 m c (Proc.devRef .tc main_arg1) = m ((c.tc : Thread nD τ).loc main_arg1) := V3_arg m c main_arg1 (by decide)
theorem V3_arg2 (c : Dev nD) : V3 m c (Proc.devRef .tc main_arg2) = m ((c.tc : Thread nD τ).loc main_arg2) := V3_arg m c main_arg2 (by decide)
theorem V3_arg3 (c : Dev nD) : V3 m c (Proc.devRef .tc main_arg3) = m ((c.tc : Thread nD τ).loc main_arg3) := V3_arg m c main_arg3 (by decide)
theorem V3_arg4 (c : Dev nD) : V3 m c (Proc.devRef .tc main_arg4) = m ((c.tc : Thread nD τ).loc main_arg4) := V3_arg m c main_arg4 (by decide)
theorem V3_arg5 (c : Dev nD) : V3 m c (Proc.devRef .tc main_arg5) = m ((c.tc : Thread nD τ).loc main_arg5) := V3_arg m c main_arg5 (by decide)

/-- The frame: the program runs to the end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_arg0 rfl).trans (V3_arg0 m c), (h c main_arg1 rfl).trans (V3_arg1 m c),
    (h c main_arg2 rfl).trans (V3_arg2 m c), (h c main_arg3 rfl).trans (V3_arg3 m c), (h c main_arg4 rfl).trans (V3_arg4 m c),
    (h c main_arg5 rfl).trans (V3_arg5 m c)⟩) (run_main m ρ)

end Cert.KernelIdeal.Hand

end
-- ==== Proof.Ideal.Blocks.lean ====
/-
  From blocks to arrays. Output window k is written back at every grid point, point t's 64 × 256 buffer landing at columns
  [256 t, 256 t + 256) of the 64 × 4096 result; the sixteen blocks tile the array. So after the run the array at (f, r) is
  what point r / 256 stored at (f, r mod 256).
-/
import proofs.«107919_g7404523618362_cont_sun_m_697_16_alg».proof.Proof.Ideal.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The 64 × 4096 array whose column block `t` is `o t`. -/
def tiled (o : Fin cfg0.N → Vec F S64x256 .f32) : Vec F S64x4096 .f32 := fun y =>
  o ⟨(y 1).val / 256, by have h := ValueIdx.idx2_lt1 y; rw [show cfg0.N = 16 from N_0]; omega⟩
    (ValueIdx.ix2 (y 0) ⟨(y 1).val % 256, Nat.mod_lt _ (by decide)⟩)

/-- Equal points and equal block indices give equal values. -/
theorem blocks_congr (o : Fin cfg0.N → Vec F S64x256 .f32) {t t' : Fin cfg0.N} {j j' : S64x256.Idx}
    (ht : t = t') (hj : j = j') : o t j = o t' j' := by
  subst ht; subst hj; rfl

/-- The tiled array, at an index whose row is the block index's row and whose column is 256 t plus the block index's
    column, is block t there. -/
theorem tiled_at (o : Fin cfg0.N → Vec F S64x256 .f32) (t : Fin cfg0.N) (j : S64x256.Idx) (i : S64x4096.Idx)
    (h0 : (i 0).val = (j 0).val) (h1 : (i 1).val = t.val * 256 + (j 1).val) :
    tiled o i = o t j := by
  have hj : (j 1).val < 256 := ValueIdx.idx2_lt1 j
  unfold tiled
  refine blocks_congr o (Fin.ext ?_) (funext fun a => Fin.ext ?_)
  · show (i 1).val / 256 = t.val
    omega
  · match a with
    | ⟨0, _⟩ => exact h0
    | ⟨1, _⟩ =>
      show (i 1).val % 256 = (j 1).val
      omega

theorem tiled_apply (o : Fin cfg0.N → Vec F S64x256 .f32) (f : Fin 64) (t : Fin cfg0.N) (p : Fin 256) (h : t.val * 256 + p.val < 4096) :
    tiled o (ValueIdx.ix2 f ⟨t.val * 256 + p.val, h⟩) = o t (ValueIdx.ix2 f p) :=
  tiled_at o t (ValueIdx.ix2 f p) (ValueIdx.ix2 f ⟨t.val * 256 + p.val, h⟩) rfl rfl

/-! ## Result 1 -/

/-- The block index of output window 1 at point t is (0, t). -/
theorem idx_out1 : ∀ t : Fin cfg0.N, win0_8.index t (0 : Fin 2) = 0 ∧ win0_8.index t (1 : Fin 2) = t.val :=
  (by decide +kernel : ∀ t : Fin grid0.N, win0_8.index t (0 : Fin 2) = 0 ∧ win0_8.index t (1 : Fin 2) = t.val)

/-- What point t writes back is block t of the tiled array. -/
theorem flushed_out1 (c : Dev nD) (t : Fin cfg0.N) :
    (dats m 0 c).flushed 8 t = ((cfg0.win 8).blk t).view.read (Elt F) (tiled (out1 m c)) := by
  show (cfg0.win 8).cut (grid0.coords t) ((dats m 0 c).after 8 t) = _
  rw [after_8]
  obtain ⟨e0, e1⟩ := idx_out1 t
  funext j
  show out1 m c t j = tiled (out1 m c) (((cfg0.win 8).blk t).view.emb j)
  refine (tiled_at (out1 m c) t j _ ?_ ?_).symm
  · show win0_8.index t (0 : Fin 2) * 64 + 1 * (j 0).val = (j 0).val
    omega
  · show win0_8.index t (1 : Fin 2) * 256 + 1 * (j 1).val = t.val * 256 + (j 1).val
    omega

/-- An index of the array is in point t's block iff each coordinate is in the block's range on its axis. -/
theorem mem_blk_out1 (t : Fin cfg0.N) (i : S64x4096.Idx) :
    i ∈ ((cfg0.win 8).blk t).view.set ↔ ∀ a : Fin 2, win0_8.index t a * S64x256.size a ≤ (i a).val ∧ (i a).val < win0_8.index t a * S64x256.size a + S64x256.size a := by
  show i ∈ ((View.whole main_v3_0).slice (win0_8.rect t)).set ↔ _
  rw [View.set_slice_whole, Rect.mem_set_unit]
  exact Iff.rfl

/-- Every index of the array is in the block of the point its column divided by 256 names. -/
theorem cover_out1 (i : S64x4096.Idx) :
    ∃ t : Fin cfg0.N, (cfg0.win 8).flush t = true ∧ i ∈ ((cfg0.win 8).blk t).view.set := by
  have hi0 : (i 0).val < 64 := ValueIdx.idx2_lt0 i
  have hi1 : (i 1).val < 4096 := ValueIdx.idx2_lt1 i
  have hN : (i 1).val / 256 < cfg0.N := by rw [show cfg0.N = 16 from N_0]; omega
  obtain ⟨e0, e1⟩ := idx_out1 ⟨(i 1).val / 256, hN⟩
  have e1' : win0_8.index ⟨(i 1).val / 256, hN⟩ (1 : Fin 2) = (i 1).val / 256 := e1
  refine ⟨⟨(i 1).val / 256, hN⟩, flush0_8 _, ?_⟩
  rw [mem_blk_out1]
  intro a
  match a with
  | ⟨0, _⟩ =>
    show win0_8.index ⟨(i 1).val / 256, hN⟩ (0 : Fin 2) * 64 ≤ (i 0).val ∧ (i 0).val < win0_8.index ⟨(i 1).val / 256, hN⟩ (0 : Fin 2) * 64 + 64
    omega
  | ⟨1, _⟩ =>
    show win0_8.index ⟨(i 1).val / 256, hN⟩ (1 : Fin 2) * 256 ≤ (i 1).val ∧ (i 1).val < win0_8.index ⟨(i 1).val / 256, hN⟩ (1 : Fin 2) * 256 + 256
    omega

/-- Result 1's array after every write-back. -/
theorem arr8_final (c : Dev nD) : (dats m 0 c).arrAt 8 cfg0.N = tiled (out1 m c) :=
  (dats m 0 c).arrAt_eq_of_cover 8 (tiled (out1 m c)) (fun t _ => flushed_out1 m c t) cover_out1

/-! ## Result 2 -/

/-- The block index of output window 2 at point t is (0, t). -/
theorem idx_out2 : ∀ t : Fin cfg0.N, win0_9.index t (0 : Fin 2) = 0 ∧ win0_9.index t (1 : Fin 2) = t.val :=
  (by decide +kernel : ∀ t : Fin grid0.N, win0_9.index t (0 : Fin 2) = 0 ∧ win0_9.index t (1 : Fin 2) = t.val)

/-- What point t writes back is block t of the tiled array. -/
theorem flushed_out2 (c : Dev nD) (t : Fin cfg0.N) :
    (dats m 0 c).flushed 9 t = ((cfg0.win 9).blk t).view.read (Elt F) (tiled (out2 m c)) := by
  show (cfg0.win 9).cut (grid0.coords t) ((dats m 0 c).after 9 t) = _
  rw [after_9]
  obtain ⟨e0, e1⟩ := idx_out2 t
  funext j
  show out2 m c t j = tiled (out2 m c) (((cfg0.win 9).blk t).view.emb j)
  refine (tiled_at (out2 m c) t j _ ?_ ?_).symm
  · show win0_9.index t (0 : Fin 2) * 64 + 1 * (j 0).val = (j 0).val
    omega
  · show win0_9.index t (1 : Fin 2) * 256 + 1 * (j 1).val = t.val * 256 + (j 1).val
    omega

/-- An index of the array is in point t's block iff each coordinate is in the block's range on its axis. -/
theorem mem_blk_out2 (t : Fin cfg0.N) (i : S64x4096.Idx) :
    i ∈ ((cfg0.win 9).blk t).view.set ↔ ∀ a : Fin 2, win0_9.index t a * S64x256.size a ≤ (i a).val ∧ (i a).val < win0_9.index t a * S64x256.size a + S64x256.size a := by
  show i ∈ ((View.whole main_v3_1).slice (win0_9.rect t)).set ↔ _
  rw [View.set_slice_whole, Rect.mem_set_unit]
  exact Iff.rfl

/-- Every index of the array is in the block of the point its column divided by 256 names. -/
theorem cover_out2 (i : S64x4096.Idx) :
    ∃ t : Fin cfg0.N, (cfg0.win 9).flush t = true ∧ i ∈ ((cfg0.win 9).blk t).view.set := by
  have hi0 : (i 0).val < 64 := ValueIdx.idx2_lt0 i
  have hi1 : (i 1).val < 4096 := ValueIdx.idx2_lt1 i
  have hN : (i 1).val / 256 < cfg0.N := by rw [show cfg0.N = 16 from N_0]; omega
  obtain ⟨e0, e1⟩ := idx_out2 ⟨(i 1).val / 256, hN⟩
  have e1' : win0_9.index ⟨(i 1).val / 256, hN⟩ (1 : Fin 2) = (i 1).val / 256 := e1
  refine ⟨⟨(i 1).val / 256, hN⟩, flush0_9 _, ?_⟩
  rw [mem_blk_out2]
  intro a
  match a with
  | ⟨0, _⟩ =>
    show win0_9.index ⟨(i 1).val / 256, hN⟩ (0 : Fin 2) * 64 ≤ (i 0).val ∧ (i 0).val < win0_9.index ⟨(i 1).val / 256, hN⟩ (0 : Fin 2) * 64 + 64
    omega
  | ⟨1, _⟩ =>
    show win0_9.index ⟨(i 1).val / 256, hN⟩ (1 : Fin 2) * 256 ≤ (i 1).val ∧ (i 1).val < win0_9.index ⟨(i 1).val / 256, hN⟩ (1 : Fin 2) * 256 + 256
    omega

/-- Result 2's array after every write-back. -/
theorem arr9_final (c : Dev nD) : (dats m 0 c).arrAt 9 cfg0.N = tiled (out2 m c) :=
  (dats m 0 c).arrAt_eq_of_cover 9 (tiled (out2 m c)) (fun t _ => flushed_out2 m c t) cover_out2

end Cert.KernelIdeal.Hand

end
-- ==== Proof.Ideal.Payload.lean ====
/-
  The body's arithmetic read at an index, at the ideal instance, over arbitrary blocks.

  A support is the transposed features against the weight, contracted over the feature axis: S[j, f] = Σ_k xt[k, j] · w[k, f].
  An output block is transpose( la · su + lb · sl + bias ): at (f, p) it is Σ_j la[p, j] su[j, f] + Σ_j lb[p, j] sl[j, f] + b[0, f].
  The matrix unit's product into a zero accumulator is the plain sum; the upper and lower halves of a 4096-row array are
  its rows j and 2048 + j.
-/
import proofs.«107919_g7404523618362_cont_sun_m_697_16_alg».proof.Proof.Ideal.Data
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

variable {F : FTy → Type} [FloatOps F]

local notation "𝕄" => MT nD τ sig Unit (Elt F) ℕ (UR sig nD τ) ℕ

open Idealize.ShloMosaic.ValueIdx

/-! ## The two halves of a support -/

theorem upper_apply (s : Vec F S4096x64 .f32) (j : Fin 2048) (f : Fin 64) :
    upper s (ix2 j f) = s (ix2 (⟨j.val, by omega⟩ : Fin 4096) f) := by
  unfold upper
  refine congrArg s (Shape.idx_ext₂ ?_ ?_)
  · show (0 : ℕ) + 1 * j.val = j.val
    omega
  · show (0 : ℕ) + 1 * f.val = f.val
    omega

theorem lower_apply (s : Vec F S4096x64 .f32) (j : Fin 2048) (f : Fin 64) :
    lower s (ix2 j f) = s (ix2 (⟨2048 + j.val, by omega⟩ : Fin 4096) f) := by
  unfold lower
  refine congrArg s (Shape.idx_ext₂ ?_ ?_)
  · show (2048 : ℕ) + 1 * j.val = 2048 + j.val
    omega
  · show (0 : ℕ) + 1 * f.val = f.val
    omega

/-! ## The feature product: the left operand contracted over its first axis -/

theorem lhs_sup_0 (i : S4096x64.Idx) (q : dot_S64x4096_S64x64_S4096x64_0_0_1_1_n_n.contr.Idx) :
    (dot_S64x4096_S64x64_S4096x64_0_0_1_1_n_n.lhsIdx i q 0).val = (q ⟨0, by decide⟩).val :=
  dot_S64x4096_S64x64_S4096x64_0_0_1_1_n_n.lhsIdx_val_of_single rfl i q
theorem lhs_sup_1 (i : S4096x64.Idx) (q : dot_S64x4096_S64x64_S4096x64_0_0_1_1_n_n.contr.Idx) :
    (dot_S64x4096_S64x64_S4096x64_0_0_1_1_n_n.lhsIdx i q 1).val = (i 0).val := by
  unfold DotDims.lhsIdx
  rw [dif_neg (show ¬(1 : Fin S64x4096.rank) ∈ dot_S64x4096_S64x64_S4096x64_0_0_1_1_n_n.lhsBatch by decide), dif_pos (show (1 : Fin S64x4096.rank) ∈ dot_S64x4096_S64x64_S4096x64_0_0_1_1_n_n.lhsNonContracting by decide)]
  rfl
theorem rhs_sup_0 (i : S4096x64.Idx) (q : dot_S64x4096_S64x64_S4096x64_0_0_1_1_n_n.contr.Idx) :
    (dot_S64x4096_S64x64_S4096x64_0_0_1_1_n_n.rhsIdx i q 0).val = (q ⟨0, by decide⟩).val :=
  dot_S64x4096_S64x64_S4096x64_0_0_1_1_n_n.rhsIdx_val_of_single rfl i q
theorem rhs_sup_1 (i : S4096x64.Idx) (q : dot_S64x4096_S64x64_S4096x64_0_0_1_1_n_n.contr.Idx) :
    (dot_S64x4096_S64x64_S4096x64_0_0_1_1_n_n.rhsIdx i q 1).val = (i 1).val := by
  unfold DotDims.rhsIdx
  rw [dif_neg (show ¬(1 : Fin S64x64.rank) ∈ dot_S64x4096_S64x64_S4096x64_0_0_1_1_n_n.rhsBatch by decide), dif_pos (show (1 : Fin S64x64.rank) ∈ dot_S64x4096_S64x64_S4096x64_0_0_1_1_n_n.rhsNonContracting by decide)]
  rfl

/-- The matrix unit's product of the transposed features and the weight into zero, at (j, f): Σ_k xt[k, j] · w[k, f]. -/
theorem matmul_sup_apply (xt : FVec Ideal S64x4096 .f32) (w : FVec Ideal S64x64 .f32) (j : Fin 4096) (f : Fin 64) :
    matmul (F := Ideal) dot_S64x4096_S64x64_S4096x64_0_0_1_1_n_n none xt w (constant (F := Ideal) S4096x64 .f32 0x00000000#32) (ix2 j f)
      = ∑ k : Fin 64, xt (ix2 k j) * w (ix2 k f) := by
  simp only [matmul]
  rw [Ideal.matmul_constant_zero_apply, ← Equiv.sum_comp (contrEquiv1 dot_S64x4096_S64x64_S4096x64_0_0_1_1_n_n 64 rfl rfl).symm]
  refine Finset.sum_congr rfl fun k _ => ?_
  have hk := contrEquiv1_symm_val dot_S64x4096_S64x64_S4096x64_0_0_1_1_n_n 64 rfl rfl k
  have el : dot_S64x4096_S64x64_S4096x64_0_0_1_1_n_n.lhsIdx (ix2 j f) ((contrEquiv1 dot_S64x4096_S64x64_S4096x64_0_0_1_1_n_n 64 rfl rfl).symm k) = ix2 k j := funext fun a => Fin.ext (by
    match a with
    | ⟨0, _⟩ => exact (lhs_sup_0 _ _).trans hk
    | ⟨1, _⟩ => exact lhs_sup_1 _ _)
  have er : dot_S64x4096_S64x64_S4096x64_0_0_1_1_n_n.rhsIdx (ix2 j f) ((contrEquiv1 dot_S64x4096_S64x64_S4096x64_0_0_1_1_n_n 64 rfl rfl).symm k) = ix2 k f := funext fun a => Fin.ext (by
    match a with
    | ⟨0, _⟩ => exact (rhs_sup_0 _ _).trans hk
    | ⟨1, _⟩ => exact rhs_sup_1 _ _)
  rw [el, er]

theorem pay1_apply (w : Vec Ideal S64x64 .f32) (xt : Vec Ideal S64x4096 .f32) (j : Fin 4096) (f : Fin 64) :
    k0_pay1 (F := Ideal) w xt (ix2 j f) = ∑ k : Fin 64, xt (ix2 k j) * w (ix2 k f) := by
  unfold k0_pay1
  rw [shapeCast_self, shapeCast_self]
  exact matmul_sup_apply xt w j f

theorem pay2_apply (w : Vec Ideal S64x64 .f32) (xt : Vec Ideal S64x4096 .f32) (j : Fin 4096) (f : Fin 64) :
    k0_pay2 (F := Ideal) w xt (ix2 j f) = ∑ k : Fin 64, xt (ix2 k j) * w (ix2 k f) := by
  unfold k0_pay2
  rw [shapeCast_self, shapeCast_self]
  exact matmul_sup_apply xt w j f

/-! ## The Laplacian product: a plain matrix product -/

theorem lhs_lap_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_lap_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_lap_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_lap_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The matrix unit's product of a half-row block and a half support into zero, at (p, f): Σ_j la[p, j] · su[j, f]. -/
theorem matmul_lap_apply (la : FVec Ideal S256x2048 .f32) (su : FVec Ideal S2048x64 .f32) (p : Fin 256) (f : Fin 64) :
    matmul (F := Ideal) dot_S256x2048_S2048x64_S256x64_1_0_0_1_n_n none la su (constant (F := Ideal) S256x64 .f32 0x00000000#32) (ix2 p f)
      = ∑ j : Fin 2048, la (ix2 p j) * su (ix2 j f) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 p f) ((contrEquiv1 dot_S256x2048_S2048x64_S256x64_1_0_0_1_n_n 2048 rfl rfl).symm k) = ix2 p k := funext fun a => Fin.ext (by
    match a with
    | ⟨0, _⟩ => exact lhs_lap_0 _ _
    | ⟨1, _⟩ => exact (lhs_lap_1 _ _).trans hk)
  have er : dot_S256x2048_S2048x64_S256x64_1_0_0_1_n_n.rhsIdx (ix2 p f) ((contrEquiv1 dot_S256x2048_S2048x64_S256x64_1_0_0_1_n_n 2048 rfl rfl).symm k) = ix2 k f := funext fun a => Fin.ext (by
    match a with
    | ⟨0, _⟩ => exact (rhs_lap_0 _ _).trans hk
    | ⟨1, _⟩ => exact rhs_lap_1 _ _)
  rw [el, er]

/-- The bias row broadcast over the 256 rows, at (p, f): b[0, f]. -/
theorem bias_apply (b : Vec Ideal S1x64 .f32) (p : Fin 256) (f : Fin 64) :
    broadcastTo S256x64 (k0_pay3 (F := Ideal) b) broadcasts_S1x64_S256x64 (ix2 p f) = b (ix2 (0 : Fin 1) f) := by
  unfold k0_pay3
  rw [shapeCast_self]
  exact broadcastTo_1b_ab_apply b broadcasts_S1x64_S256x64 p f

theorem pay4_apply (b : Vec Ideal S1x64 .f32) (la lb : Vec Ideal S256x2048 .f32) (su sl : Vec Ideal S2048x64 .f32) (f : Fin 64) (p : Fin 256) :
    k0_pay4 (F := Ideal) b la su lb sl (ix2 f p)
      = ((∑ j : Fin 2048, la (ix2 p j) * su (ix2 j f)) + (∑ j : Fin 2048, lb (ix2 p j) * sl (ix2 j f))) + b (ix2 (0 : Fin 1) f) := by
  unfold k0_pay4
  refine (transpose_ix2_apply _ transposes_S256x64_p1_0_S64x256 f p).trans ?_
  rw [addf_apply, addf_apply, matmul_lap_apply, matmul_lap_apply, bias_apply]

theorem pay5_apply (b : Vec Ideal S1x64 .f32) (la lb : Vec Ideal S256x2048 .f32) (su sl : Vec Ideal S2048x64 .f32) (f : Fin 64) (p : Fin 256) :
    k0_pay5 (F := Ideal) b la su lb sl (ix2 f p)
      = ((∑ j : Fin 2048, la (ix2 p j) * su (ix2 j f)) + (∑ j : Fin 2048, lb (ix2 p j) * sl (ix2 j f))) + b (ix2 (0 : Fin 1) f) := by
  unfold k0_pay5
  refine (transpose_ix2_apply _ transposes_S256x64_p1_0_S64x256 f p).trans ?_
  rw [addf_apply, addf_apply, matmul_lap_apply, matmul_lap_apply, bias_apply]

end Cert.KernelIdeal.Hand

end
-- ==== Proof.Spec.lean ====
/-
  The function both programs compute, stated once over literal shapes and with no program imported.
  For a feature matrix `x` (4096 × 64), a Laplacian `l` (4096 × 4096), a weight `w` (64 × 64) and a bias `b` (64):
  entry (r, f) is  Σ_j l[r, j] · (Σ_k x[j, k] · w[k, f])  +  b[f],
  the graph convolution  l · (x · w) + b  with the inner product `x · w` (the "support") formed first.
-/
import Idealize.ShloMosaic.PureOps.Ideal
import Idealize.ShloMosaic.Lib.ValueIdx

noncomputable section

namespace Cert.Spec

open Idealize.ShloMosaic Idealize.ShloMosaic.ValueIdx

abbrev SFeat : Shape := ⟨2, ![4096, 64]⟩
abbrev SLap : Shape := ⟨2, ![4096, 4096]⟩
abbrev SWgt : Shape := ⟨2, ![64, 64]⟩
abbrev SBias : Shape := ⟨1, ![64]⟩

/-- The support `x · w` at row `j`, feature `f`. -/
def support (x : Vec Ideal SFeat .f32) (w : Vec Ideal SWgt .f32) (j : Fin 4096) (f : Fin 64) : EReal :=
  ∑ k : Fin 64, x (ix2 j k) * w (ix2 k f)

/-- The convolution at row `r`, feature `f`: the Laplacian's row against the support's column, plus the bias. -/
def convAt (x : Vec Ideal SFeat .f32) (l : Vec Ideal SLap .f32) (w : Vec Ideal SWgt .f32) (b : Vec Ideal SBias .f32)
    (r : Fin 4096) (f : Fin 64) : EReal :=
  (∑ j : Fin 4096, l (ix2 r j) * support x w j f) + b (ix1 f)

/-- The whole result array. -/
def conv (x : Vec Ideal SFeat .f32) (l : Vec Ideal SLap .f32) (w : Vec Ideal SWgt .f32) (b : Vec Ideal SBias .f32) :
    Vec Ideal SFeat .f32 :=
  fun i => convAt x l w b (i 0) (i 1)

theorem conv_ix2 (x : Vec Ideal SFeat .f32) (l : Vec Ideal SLap .f32) (w : Vec Ideal SWgt .f32) (b : Vec Ideal SBias .f32)
    (r : Fin 4096) (f : Fin 64) : conv x l w b (ix2 r f) = convAt x l w b r f := rfl

end Cert.Spec

end
-- ==== Proof.Ideal.Value.lean ====
/-
  The idealized kernel's two results are the convolution of Spec.lean.

  Output k's array after the run is, block by block, transpose(L_left · S_up + L_right · S_lo + bias); the blocks
  (0, t), t < 16, tile the 64 × 4096 array, so the array at (f, r) is Σ_{j<2048} L[r, j] S[j, f] + Σ_{j<2048} L[r, 2048 + j] S[2048 + j, f] + b[f]
  with S = x · w (the support, formed from the transposed features: S[j, f] = Σ_k xᵀ[k, j] w[k, f]). The last host operations
  transpose it back. Splitting Σ_{j<4096} at 2048 is associativity and commutativity of + on the extended reals: no
  finiteness is used.
-/
import proofs.«107919_g7404523618362_cont_sun_m_697_16_alg».proof.Proof.Ideal.Run
import proofs.«107919_g7404523618362_cont_sun_m_697_16_alg».proof.Proof.Ideal.Blocks
import proofs.«107919_g7404523618362_cont_sun_m_697_16_alg».proof.Proof.Ideal.Payload
import proofs.«107919_g7404523618362_cont_sun_m_697_16_alg».proof.Proof.Spec
import Idealize.ShloMosaic.Lib.StableHlo.Run
import Idealize.ShloMosaic.Lib.ValueLayout
import Idealize.ShloMosaic.Lib.ValueIdx
import Idealize.ShloMosaic.Lib.Pipeline.Value
import Mathlib.Algebra.BigOperators.Fin

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

namespace Value

/-! ## The host operations around the region -/

/-- Leaving the region, the two result buffers hold what the write-backs made of them. -/
theorem V2_v3_0 (c : Dev nD) : V2 m c (Proc.devRef .tc main_v3_0) = res1 m c := by
  dsimp only [V2]
  rw [Function.update_of_ne (by decide), Function.update_self]

theorem V2_v3_1 (c : Dev nD) : V2 m c (Proc.devRef .tc main_v3_1) = res2 m c := by
  dsimp only [V2]
  rw [Function.update_self]

/-- The final results are the region's results transposed. -/
theorem V3_v4 (c : Dev nD) : (V3 m c (Proc.devRef .tc main_v4) : S4096x64.Idx → EReal)
    = transpose S4096x64 [1, 0] (res1 m c) transposes_S64x4096_S4096x64_1_0 := by
  dsimp only [V3, hostOps1]
  after_results
  rw [V2_v3_0]

theorem V3_v5 (c : Dev nD) : (V3 m c (Proc.devRef .tc main_v5) : S4096x64.Idx → EReal)
    = transpose S4096x64 [1, 0] (res2 m c) transposes_S64x4096_S4096x64_1_0 := by
  dsimp only [V3, hostOps1]
  after_results
  rw [V2_v3_1]

/-- Entering the region: the features transposed, the bias as a row, the Laplacians and the weight as launched. -/
theorem VE_v0 (c : Dev nD) : (VE m c main_v0 : S64x4096.Idx → EReal)
    = transpose S64x4096 [1, 0] (m ((c.tc : Thread nD τ).loc main_arg0)) transposes_S4096x64_S64x4096_1_0 := by
  dsimp only [VE, V1, hostOps0]
  after_results

theorem VE_v1 (c : Dev nD) : (VE m c main_v1 : S64x4096.Idx → EReal)
    = transpose S64x4096 [1, 0] (m ((c.tc : Thread nD τ).loc main_arg1)) transposes_S4096x64_S64x4096_1_0 := by
  dsimp only [VE, V1, hostOps0]
  after_results

theorem VE_v2 (c : Dev nD) : (VE m c main_v2 : S1x64.Idx → EReal)
    = shapeCast S1x64 (m ((c.tc : Thread nD τ).loc main_arg5)) shapeCasts_S64_S1x64 := by
  dsimp only [VE, V1, hostOps0]
  after_results
  rfl

theorem VE_arg2 (c : Dev nD) : VE m c main_arg2 = m ((c.tc : Thread nD τ).loc main_arg2) := by
  dsimp only [VE, V1, hostOps0]
  after_results

theorem VE_arg3 (c : Dev nD) : VE m c main_arg3 = m ((c.tc : Thread nD τ).loc main_arg3) := by
  dsimp only [VE, V1, hostOps0]
  after_results

theorem VE_arg4 (c : Dev nD) : VE m c main_arg4 = m ((c.tc : Thread nD τ).loc main_arg4) := by
  dsimp only [VE, V1, hostOps0]
  after_results

/-- A 64-vector viewed as a 1 × 64 row reads, at (0, f), entry f. -/
theorem row_apply (x : S64.Idx → EReal) (f : Fin 64) :
    shapeCast S1x64 x shapeCasts_S64_S1x64 (ix2 (0 : Fin 1) f) = x (ix1 f) := by
  refine shapeCast_apply x _ _ _ ?_
  rw [Shape.rowMajor_val_one, Shape.rowMajor_val_two]
  show f.val = 0 * 64 + f.val
  omega

/-! ## The windows' blocks at an index -/

/-- The printed index maps over the grid: the features, the weight and the bias are whole (block (0, 0)); a Laplacian's
    left and right half-row blocks at point t are blocks (t, 0) and (t, 1). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 1
    ∧ win0_5.index t (0 : Fin 2) = t.val ∧ win0_5.index t (1 : Fin 2) = 0
    ∧ win0_6.index t (0 : Fin 2) = t.val ∧ win0_6.index t (1 : Fin 2) = 1
    ∧ win0_7.index t (0 : Fin 2) = 0 ∧ win0_7.index t (1 : Fin 2) = 0 :=
  (by decide +kernel : ∀ t : Fin grid0.N, _)

theorem xt1_apply (c : Dev nD) (t : Fin cfg0.N) (k : Fin 64) (j : Fin 4096) :
    xt1 m c t (ix2 k j) = (VE m c main_v0 : S64x4096.Idx → EReal) (ix2 k j) := by
  obtain ⟨e0, e1, -⟩ := idx_facts t
  show (VE m c main_v0 : S64x4096.Idx → EReal) (((cfg0.win 0).blk t).view.emb (ix2 k j)) = _
  refine congrArg _ (funext fun a => Fin.ext ?_)
  match a with
  | ⟨0, _⟩ => show win0_0.index t (0 : Fin 2) * 64 + 1 * k.val = k.val; omega
  | ⟨1, _⟩ => show win0_0.index t (1 : Fin 2) * 4096 + 1 * j.val = j.val; omega

theorem xt2_apply (c : Dev nD) (t : Fin cfg0.N) (k : Fin 64) (j : Fin 4096) :
    xt2 m c t (ix2 k j) = (VE m c main_v1 : S64x4096.Idx → EReal) (ix2 k j) := by
  obtain ⟨-, -, e0, e1, -⟩ := idx_facts t
  show (VE m c main_v1 : S64x4096.Idx → EReal) (((cfg0.win 1).blk t).view.emb (ix2 k j)) = _
  refine congrArg _ (funext fun a => Fin.ext ?_)
  match a with
  | ⟨0, _⟩ => show win0_1.index t (0 : Fin 2) * 64 + 1 * k.val = k.val; omega
  | ⟨1, _⟩ => show win0_1.index t (1 : Fin 2) * 4096 + 1 * j.val = j.val; omega

theorem wgt_apply (c : Dev nD) (t : Fin cfg0.N) (k : Fin 64) (f : Fin 64) :
    wgt m c t (ix2 k f) = (VE m c main_arg4 : S64x64.Idx → EReal) (ix2 k f) := by
  obtain ⟨-, -, -, -, e0, e1, -⟩ := idx_facts t
  show (VE m c main_arg4 : S64x64.Idx → EReal) (((cfg0.win 2).blk t).view.emb (ix2 k f)) = _
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * f.val = f.val; omega

theorem lap1L_apply (c : Dev nD) (t : Fin cfg0.N) (p : Fin 256) (j : Fin 2048) (h : t.val * 256 + p.val < 4096) :
    lap1L m c t (ix2 p j) = (VE m c main_arg2 : S4096x4096.Idx → EReal) (ix2 ⟨t.val * 256 + p.val, h⟩ ⟨j.val, by omega⟩) := by
  obtain ⟨-, -, -, -, -, -, e0, e1, -⟩ := idx_facts t
  show (VE m c main_arg2 : S4096x4096.Idx → EReal) (((cfg0.win 3).blk t).view.emb (ix2 p j)) = _
  refine congrArg _ (funext fun a => Fin.ext ?_)
  match a with
  | ⟨0, _⟩ => show win0_3.index t (0 : Fin 2) * 256 + 1 * p.val = t.val * 256 + p.val; omega
  | ⟨1, _⟩ => show win0_3.index t (1 : Fin 2) * 2048 + 1 * j.val = j.val; omega

theorem lap1R_apply (c : Dev nD) (t : Fin cfg0.N) (p : Fin 256) (j : Fin 2048) (h : t.val * 256 + p.val < 4096) :
    lap1R m c t (ix2 p j) = (VE m c main_arg2 : S4096x4096.Idx → EReal) (ix2 ⟨t.val * 256 + p.val, h⟩ ⟨2048 + j.val, by omega⟩) := by
  obtain ⟨-, -, -, -, -, -, -, -, e0, e1, -⟩ := idx_facts t
  show (VE m c main_arg2 : S4096x4096.Idx → EReal) (((cfg0.win 4).blk t).view.emb (ix2 p j)) = _
  refine congrArg _ (funext fun a => Fin.ext ?_)
  match a with
  | ⟨0, _⟩ => show win0_4.index t (0 : Fin 2) * 256 + 1 * p.val = t.val * 256 + p.val; omega
  | ⟨1, _⟩ => show win0_4.index t (1 : Fin 2) * 2048 + 1 * j.val = 2048 + j.val; omega

theorem lap2L_apply (c : Dev nD) (t : Fin cfg0.N) (p : Fin 256) (j : Fin 2048) (h : t.val * 256 + p.val < 4096) :
    lap2L m c t (ix2 p j) = (VE m c main_arg3 : S4096x4096.Idx → EReal) (ix2 ⟨t.val * 256 + p.val, h⟩ ⟨j.val, by omega⟩) := by
  obtain ⟨-, -, -, -, -, -, -, -, -, -, e0, e1, -⟩ := idx_facts t
  show (VE m c main_arg3 : S4096x4096.Idx → EReal) (((cfg0.win 5).blk t).view.emb (ix2 p j)) = _
  refine congrArg _ (funext fun a => Fin.ext ?_)
  match a with
  | ⟨0, _⟩ => show win0_5.index t (0 : Fin 2) * 256 + 1 * p.val = t.val * 256 + p.val; omega
  | ⟨1, _⟩ => show win0_5.index t (1 : Fin 2) * 2048 + 1 * j.val = j.val; omega

theorem lap2R_apply (c : Dev nD) (t : Fin cfg0.N) (p : Fin 256) (j : Fin 2048) (h : t.val * 256 + p.val < 4096) :
    lap2R m c t (ix2 p j) = (VE m c main_arg3 : S4096x4096.Idx → EReal) (ix2 ⟨t.val * 256 + p.val, h⟩ ⟨2048 + j.val, by omega⟩) := by
  obtain ⟨-, -, -, -, -, -, -, -, -, -, -, -, e0, e1, -⟩ := idx_facts t
  show (VE m c main_arg3 : S4096x4096.Idx → EReal) (((cfg0.win 6).blk t).view.emb (ix2 p j)) = _
  refine congrArg _ (funext fun a => Fin.ext ?_)
  match a with
  | ⟨0, _⟩ => show win0_6.index t (0 : Fin 2) * 256 + 1 * p.val = t.val * 256 + p.val; omega
  | ⟨1, _⟩ => show win0_6.index t (1 : Fin 2) * 2048 + 1 * j.val = 2048 + j.val; omega

theorem biasRow_apply (c : Dev nD) (t : Fin cfg0.N) (f : Fin 64) :
    biasRow m c t (ix2 (0 : Fin 1) f) = (VE m c main_v2 : S1x64.Idx → EReal) (ix2 (0 : Fin 1) f) := by
  obtain ⟨-, -, -, -, -, -, -, -, -, -, -, -, -, -, e0, e1⟩ := idx_facts t
  show (VE m c main_v2 : S1x64.Idx → EReal) (((cfg0.win 7).blk t).view.emb (ix2 (0 : Fin 1) f)) = _
  refine congrArg _ (funext fun a => Fin.ext ?_)
  match a with
  | ⟨0, _⟩ => show win0_7.index t (0 : Fin 2) * 1 + 1 * 0 = 0; omega
  | ⟨1, _⟩ => show win0_7.index t (1 : Fin 2) * 64 + 1 * f.val = f.val; omega

/-! ## The supports -/

/-- The support the body forms at the first point is the specification's: row j of the features against column f of the weight. -/
theorem sup1_apply (c : Dev nD) (j : Fin 4096) (f : Fin 64) :
    sup1 m c (ix2 j f)
      = Cert.Spec.support (m ((c.tc : Thread nD τ).loc main_arg0)) (m ((c.tc : Thread nD τ).loc main_arg4)) j f := by
  unfold sup1 Cert.Spec.support
  refine (pay1_apply (wgt m c t0_0) (xt1 m c t0_0) j f).trans ?_
  refine Finset.sum_congr rfl fun k _ => ?_
  rw [xt1_apply, wgt_apply, VE_v0, VE_arg4, transpose_ix2_apply]

theorem sup2_apply (c : Dev nD) (j : Fin 4096) (f : Fin 64) :
    sup2 m c (ix2 j f)
      = Cert.Spec.support (m ((c.tc : Thread nD τ).loc main_arg1)) (m ((c.tc : Thread nD τ).loc main_arg4)) j f := by
  unfold sup2 Cert.Spec.support
  refine (pay2_apply (wgt m c t0_0) (xt2 m c t0_0) j f).trans ?_
  refine Finset.sum_congr rfl fun k _ => ?_
  rw [xt2_apply, wgt_apply, VE_v1, VE_arg4, transpose_ix2_apply]

/-! ## The output blocks -/

/-- A sum over 4096 terms is the sum of its first 2048 and of its last 2048: + on the extended reals is associative and commutative. -/
theorem sum_halves (g : Fin 4096 → EReal) :
    (∑ j : Fin 2048, g ⟨j.val, by omega⟩) + (∑ j : Fin 2048, g ⟨2048 + j.val, by omega⟩) = ∑ j : Fin 4096, g j :=
  (Fin.sum_univ_add (M := EReal) (a := 2048) (b := 2048) (g : Fin (2048 + 2048) → EReal)).symm

/-- What point t stores into result 1's buffer at (f, p) is the convolution at row 256 t + p, feature f. -/
theorem out1_apply (c : Dev nD) (t : Fin cfg0.N) (f : Fin 64) (p : Fin 256) (h : t.val * 256 + p.val < 4096) :
    out1 m c t (ix2 f p)
      = Cert.Spec.convAt (m ((c.tc : Thread nD τ).loc main_arg0)) (m ((c.tc : Thread nD τ).loc main_arg2))
          (m ((c.tc : Thread nD τ).loc main_arg4)) (m ((c.tc : Thread nD τ).loc main_arg5)) ⟨t.val * 256 + p.val, h⟩ f := by
  unfold out1 Cert.Spec.convAt
  refine (pay4_apply (biasRow m c t) (lap1L m c t) (lap1R m c t) (upper (sup1 m c)) (lower (sup1 m c)) f p).trans ?_
  refine congrArg₂ (· + ·) ?_ ?_
  · rw [← sum_halves]
    refine congrArg₂ (· + ·) (Finset.sum_congr rfl fun j _ => ?_) (Finset.sum_congr rfl fun j _ => ?_)
    · rw [lap1L_apply m c t p j h, upper_apply, sup1_apply, VE_arg2]
    · rw [lap1R_apply m c t p j h, lower_apply, sup1_apply, VE_arg2]
  · rw [biasRow_apply, VE_v2, row_apply]

theorem out2_apply (c : Dev nD) (t : Fin cfg0.N) (f : Fin 64) (p : Fin 256) (h : t.val * 256 + p.val < 4096) :
    out2 m c t (ix2 f p)
      = Cert.Spec.convAt (m ((c.tc : Thread nD τ).loc main_arg1)) (m ((c.tc : Thread nD τ).loc main_arg3))
          (m ((c.tc : Thread nD τ).loc main_arg4)) (m ((c.tc : Thread nD τ).loc main_arg5)) ⟨t.val * 256 + p.val, h⟩ f := by
  unfold out2 Cert.Spec.convAt
  refine (pay5_apply (biasRow m c t) (lap2L m c t) (lap2R m c t) (upper (sup2 m c)) (lower (sup2 m c)) f p).trans ?_
  refine congrArg₂ (· + ·) ?_ ?_
  · rw [← sum_halves]
    refine congrArg₂ (· + ·) (Finset.sum_congr rfl fun j _ => ?_) (Finset.sum_congr rfl fun j _ => ?_)
    · rw [lap2L_apply m c t p j h, upper_apply, sup2_apply, VE_arg3]
    · rw [lap2R_apply m c t p j h, lower_apply, sup2_apply, VE_arg3]
  · rw [biasRow_apply, VE_v2, row_apply]

/-! ## The results -/

/-- Every row index is 256 t + p for a grid point t and a row p of its block. -/
theorem row_split (r : Fin 4096) : ∃ (t : Fin cfg0.N) (p : Fin 256) (h : t.val * 256 + p.val < 4096), r = ⟨t.val * 256 + p.val, h⟩ := by
  have hr := r.isLt
  have hlt : r.val / 256 < cfg0.N := by rw [show cfg0.N = 16 from N_0]; omega
  refine ⟨⟨r.val / 256, hlt⟩, ⟨r.val % 256, Nat.mod_lt _ (by decide)⟩, ?_, Fin.ext ?_⟩
  · show r.val / 256 * 256 + r.val % 256 < 4096
    omega
  · show r.val = r.val / 256 * 256 + r.val % 256
    omega

end Value

open Value

theorem v4_eq (c : Dev nD) : V3 m c (Proc.devRef .tc main_v4)
    = Cert.Spec.conv (m ((c.tc : Thread nD τ).loc main_arg0)) (m ((c.tc : Thread nD τ).loc main_arg2))
        (m ((c.tc : Thread nD τ).loc main_arg4)) (m ((c.tc : Thread nD τ).loc main_arg5)) := by
  refine (V3_v4 m c).trans ?_
  funext i
  obtain ⟨r, f, rfl⟩ : ∃ (r : Fin 4096) (f : Fin 64), i = ix2 r f := ⟨i 0, i 1, eq_ix2 i⟩
  obtain ⟨t, p, h, rfl⟩ := row_split r
  rw [Cert.Spec.conv_ix2]
  refine (transpose_ix2_apply (res1 m c : S64x4096.Idx → EReal) _ _ f).trans ?_
  rw [show res1 m c = tiled (out1 m c) from arr8_final m c, tiled_apply, out1_apply]

theorem v5_eq (c : Dev nD) : V3 m c (Proc.devRef .tc main_v5)
    = Cert.Spec.conv (m ((c.tc : Thread nD τ).loc main_arg1)) (m ((c.tc : Thread nD τ).loc main_arg3))
        (m ((c.tc : Thread nD τ).loc main_arg4)) (m ((c.tc : Thread nD τ).loc main_arg5)) := by
  refine (V3_v5 m c).trans ?_
  funext i
  obtain ⟨r, f, rfl⟩ : ∃ (r : Fin 4096) (f : Fin 64), i = ix2 r f := ⟨i 0, i 1, eq_ix2 i⟩
  obtain ⟨t, p, h, rfl⟩ := row_split r
  rw [Cert.Spec.conv_ix2]
  refine (transpose_ix2_apply (res2 m c : S64x4096.Idx → EReal) _ _ f).trans ?_
  rw [show res2 m c = tiled (out2 m c) from arr9_final m c, tiled_apply, out2_apply]

end Cert.KernelIdeal.Hand

end
-- ==== Proof.RefValue.lean ====
/-
  The reference's two results, read index by index, are the convolution of Spec.lean: each is
  dot_general(l, dot_general(x, w)) + broadcast(b), the inner product the support, both contractions plain sums at Ideal.
-/
import proofs.«107919_g7404523618362_cont_sun_m_697_16_alg».proof.Proof.Spec
import proofs.«107919_g7404523618362_cont_sun_m_697_16_alg».proof.Proof.Gen.ReferenceIdeal.Run
import proofs.«107919_g7404523618362_cont_sun_m_697_16_alg».proof.Proof.Gen.ReferenceIdeal.Read

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem
open Idealize.ShloMosaic.ValueIdx

/-! ## Where each operation reads its operands

An outer contraction at entry (r, f), term j, reads the Laplacian at (r, j) and the support at (j, f); an inner
contraction at entry (j, f), term k, reads the features at (j, k) and the weight at (k, f); the bias, broadcast
twice, is read at f. Both chains have the same index functions. -/

theorem outer_left (r : Fin 4096) (f : Fin 64) (j : Fin 4096) : lidx_main_v1 (ix2 r f) j = ix2 r j :=
  funext fun a => Fin.ext (by match a with | ⟨0, _⟩ => rfl | ⟨1, _⟩ => rfl)

theorem outer_right (r : Fin 4096) (f : Fin 64) (j : Fin 4096) : ridx_main_v1 (ix2 r f) j = ix2 j f :=
  funext fun a => Fin.ext (by match a with | ⟨0, _⟩ => rfl | ⟨1, _⟩ => rfl)

theorem inner_left (j : Fin 4096) (f : Fin 64) (k : Fin 64) : lidx_main_v0 (ix2 j f) k = ix2 j k :=
  funext fun a => Fin.ext (by match a with | ⟨0, _⟩ => rfl | ⟨1, _⟩ => rfl)

theorem inner_right (j : Fin 4096) (f : Fin 64) (k : Fin 64) : ridx_main_v0 (ix2 j f) k = ix2 k f :=
  funext fun a => Fin.ext (by match a with | ⟨0, _⟩ => rfl | ⟨1, _⟩ => rfl)

theorem bias_row (r : Fin 4096) (f : Fin 64) : idx_main_v5 (ix2 r f) = ix2 (0 : Fin 1) f :=
  funext fun a => Fin.ext (by match a with | ⟨0, _⟩ => rfl | ⟨1, _⟩ => rfl)

theorem bias_col (z : Fin 1) (f : Fin 64) : idx_main_v4 (ix2 z f) = ix1 f :=
  funext fun a => Fin.ext (by match a with | ⟨0, _⟩ => rfl)

/-! The second chain's operations, at the same places. -/

theorem outer_left' (r : Fin 4096) (f : Fin 64) (j : Fin 4096) : lidx_main_v3 (ix2 r f) j = ix2 r j :=
  funext fun a => Fin.ext (by match a with | ⟨0, _⟩ => rfl | ⟨1, _⟩ => rfl)

theorem outer_right' (r : Fin 4096) (f : Fin 64) (j : Fin 4096) : ridx_main_v3 (ix2 r f) j = ix2 j f :=
  funext fun a => Fin.ext (by match a with | ⟨0, _⟩ => rfl | ⟨1, _⟩ => rfl)

theorem inner_left' (j : Fin 4096) (f : Fin 64) (k : Fin 64) : lidx_main_v2 (ix2 j f) k = ix2 j k :=
  funext fun a => Fin.ext (by match a with | ⟨0, _⟩ => rfl | ⟨1, _⟩ => rfl)

theorem inner_right' (j : Fin 4096) (f : Fin 64) (k : Fin 64) : ridx_main_v2 (ix2 j f) k = ix2 k f :=
  funext fun a => Fin.ext (by match a with | ⟨0, _⟩ => rfl | ⟨1, _⟩ => rfl)

theorem bias_row' (r : Fin 4096) (f : Fin 64) : idx_main_v8 (ix2 r f) = ix2 (0 : Fin 1) f :=
  funext fun a => Fin.ext (by match a with | ⟨0, _⟩ => rfl | ⟨1, _⟩ => rfl)

theorem bias_col' (z : Fin 1) (f : Fin 64) : idx_main_v7 (ix2 z f) = ix1 f :=
  funext fun a => Fin.ext (by match a with | ⟨0, _⟩ => rfl)

/-! ## Each result is the convolution

Entry (r, f) of a result is the sum of the outer contraction plus the broadcast bias; reading every operation at its
index leaves  Σ_j l(r, j) · (Σ_k x(j, k) · w(k, f)) + b(f),  which is the specification's entry as written. -/

theorem ref_v6 (x0 : (⟨S4096x64, .f32⟩ : BufTy).Contents (Elt Ideal)) (x2 : (⟨S4096x4096, .f32⟩ : BufTy).Contents (Elt Ideal))
    (x4 : (⟨S64x64, .f32⟩ : BufTy).Contents (Elt Ideal)) (x5 : (⟨S64, .f32⟩ : BufTy).Contents (Elt Ideal)) :
    val_main_v6 x0 x2 x4 x5 = Cert.Spec.conv x0 x2 x4 x5 := by
  funext i
  obtain ⟨r, f, rfl⟩ : ∃ (r : Fin 4096) (f : Fin 64), i = ix2 r f := ⟨i 0, i 1, eq_ix2 i⟩
  rw [val_main_v6_apply, val_main_v1_apply, val_main_v5_apply, val_main_v4_apply]
  simp only [val_main_v0_apply, outer_left, outer_right, inner_left, inner_right, bias_row, bias_col, Ideal.addf_def,
    Cert.Spec.conv, Cert.Spec.convAt, Cert.Spec.support]

theorem ref_v9 (x1 : (⟨S4096x64, .f32⟩ : BufTy).Contents (Elt Ideal)) (x3 : (⟨S4096x4096, .f32⟩ : BufTy).Contents (Elt Ideal))
    (x4 : (⟨S64x64, .f32⟩ : BufTy).Contents (Elt Ideal)) (x5 : (⟨S64, .f32⟩ : BufTy).Contents (Elt Ideal)) :
    val_main_v9 x1 x3 x4 x5 = Cert.Spec.conv x1 x3 x4 x5 := by
  funext i
  obtain ⟨r, f, rfl⟩ : ∃ (r : Fin 4096) (f : Fin 64), i = ix2 r f := ⟨i 0, i 1, eq_ix2 i⟩
  rw [val_main_v9_apply, val_main_v3_apply, val_main_v8_apply, val_main_v7_apply]
  simp only [val_main_v2_apply, outer_left', outer_right', inner_left', inner_right', bias_row', bias_col', Ideal.addf_def,
    Cert.Spec.conv, Cert.Spec.convAt, Cert.Spec.support]

end Cert.ReferenceIdeal.RefValue

end
-- ==== Proof.lean ====
/-
  The certificate: both kernels' frames, the reference's frame, and the equality of results over the extended reals.

  The kernel computes, for each of two chains, transpose( L · (x · w) + b ) block by block and transposes it back; the
  reference computes L · (x · w) + b directly. Both are Spec.lean's `conv` of the four argument arrays (Ideal/Value.lean for the
  kernel, RefValue.lean for the reference): the kernel splits the contraction over the Laplacian's columns at 2048, which is
  associativity and commutativity of + on the extended reals, so the precondition is never opened. The idealization rewrote
  nothing, so `preserves` is trivial. The frames are the launch of Ideal/Run.lean (and its word-level copy under Bits/):
  @main as host operations, the kernel region, host operations, with each Laplacian's share split between its two windows.
-/
import proofs.«107919_g7404523618362_cont_sun_m_697_16_alg».proof.Defs
import proofs.«107919_g7404523618362_cont_sun_m_697_16_alg».proof.Proof.Gen.Kernel
import proofs.«107919_g7404523618362_cont_sun_m_697_16_alg».proof.Proof.Gen.KernelIdeal
import proofs.«107919_g7404523618362_cont_sun_m_697_16_alg».proof.Proof.Gen.ReferenceIdeal
import proofs.«107919_g7404523618362_cont_sun_m_697_16_alg».proof.Proof.Gen.Pre_finite_inputs
import proofs.«107919_g7404523618362_cont_sun_m_697_16_alg».proof.Proof.Bits.Run
import proofs.«107919_g7404523618362_cont_sun_m_697_16_alg».proof.Proof.Ideal.Value
import proofs.«107919_g7404523618362_cont_sun_m_697_16_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with each result at `Spec.conv` of their (agreeing) arguments. -/
theorem algebraic : Cert.algebraic_KernelIdeal_ReferenceIdeal := by
  intro m ρ m' ρ' _ hagree
  refine ⟨fun c => Cert.Spec.conv (m ((c.tc : Thread _ _).loc Cert.KernelIdeal.main_arg0)) (m ((c.tc : Thread _ _).loc Cert.KernelIdeal.main_arg2))
        (m ((c.tc : Thread _ _).loc Cert.KernelIdeal.main_arg4)) (m ((c.tc : Thread _ _).loc Cert.KernelIdeal.main_arg5)),
      fun c => Cert.Spec.conv (m ((c.tc : Thread _ _).loc Cert.KernelIdeal.main_arg1)) (m ((c.tc : Thread _ _).loc Cert.KernelIdeal.main_arg3))
        (m ((c.tc : Thread _ _).loc Cert.KernelIdeal.main_arg4)) (m ((c.tc : Thread _ _).loc Cert.KernelIdeal.main_arg5)), ?_, ?_⟩
  · exact (θ_run Cert.KernelIdeal.defs _ _).mono (fun _ h c =>
      ⟨(h c Cert.KernelIdeal.main_v4 rfl).trans (Cert.KernelIdeal.Hand.v4_eq m c),
        (h c Cert.KernelIdeal.main_v5 rfl).trans (Cert.KernelIdeal.Hand.v5_eq m c),
        (h c Cert.KernelIdeal.main_arg0 rfl).trans (Cert.KernelIdeal.Hand.V3_arg0 m c),
        (h c Cert.KernelIdeal.main_arg1 rfl).trans (Cert.KernelIdeal.Hand.V3_arg1 m c),
        (h c Cert.KernelIdeal.main_arg2 rfl).trans (Cert.KernelIdeal.Hand.V3_arg2 m c),
        (h c Cert.KernelIdeal.main_arg3 rfl).trans (Cert.KernelIdeal.Hand.V3_arg3 m c),
        (h c Cert.KernelIdeal.main_arg4 rfl).trans (Cert.KernelIdeal.Hand.V3_arg4 m c),
        (h c Cert.KernelIdeal.main_arg5 rfl).trans (Cert.KernelIdeal.Hand.V3_arg5 m c)⟩)
      (Cert.KernelIdeal.Hand.run_main (F := Ideal) m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v6_eq, Cert.ReferenceIdeal.RefValue.ref_v6,
        (hagree c).1, (hagree c).2.2.1, (hagree c).2.2.2.2.1, (hagree c).2.2.2.2.2]
    · rw [(h c).2.1, Cert.ReferenceIdeal.Read.val_main_v9_eq, Cert.ReferenceIdeal.RefValue.ref_v9,
        (hagree c).2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
